-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128x128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S256 : Shape := ⟨1, ![256]⟩
abbrev S100000x1 : Shape := ⟨2, ![100000, 1]⟩
abbrev S256x1 : Shape := ⟨2, ![256, 1]⟩
abbrev S1x1 : Shape := ⟨2, ![1, 1]⟩
abbrev S5000x1 : Shape := ⟨2, ![5000, 1]⟩
abbrev S256x128 : Shape := ⟨2, ![256, 128]⟩
abbrev S1x256 : Shape := ⟨2, ![1, 256]⟩
abbrev S5000x256 : Shape := ⟨2, ![5000, 256]⟩

abbrev nBuf : Space → Nat
  | .hbm => 49
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S100000, .f32⟩
  | .hbm, ⟨41, _⟩ => ⟨S_, .f32⟩
  | .hbm, ⟨42, _⟩ => ⟨S256, .f32⟩
  | .hbm, ⟨43, _⟩ => ⟨S100000x1, .i32⟩
  | .hbm, ⟨44, _⟩ => ⟨S256, .f32⟩
  | .hbm, ⟨45, _⟩ => ⟨S100000x1, .i32⟩
  | .hbm, ⟨46, _⟩ => ⟨S256x1, .f32⟩
  | .hbm, ⟨47, _⟩ => ⟨S1x1, .f32⟩
  | .hbm, ⟨48, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .i32⟩
  | .local _ .vmem, ⟨13, _⟩ => ⟨S5000x1, .i32⟩
  | .local _ .vmem, ⟨14, _⟩ => ⟨S256x1, .f32⟩
  | .local _ .vmem, ⟨15, _⟩ => ⟨S128x1, .f32⟩
  | .local _ .vmem, ⟨16, _⟩ => ⟨S1x1, .f32⟩
  | .local _ .vmem, ⟨17, _⟩ => ⟨S256x1, .f32⟩
  | .local _ .vmem, ⟨18, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_8 : BitVec 32 := 0#32
  let v23 : BitVec 1 := Scalar.cmpi .ne v22 c0_i32_8
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x128_S5000x128 : S5000x128.ShapeCasts S5000x128
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  shapeCasts_S100000_S100000x1 : S100000.ShapeCasts S100000x1
  shapeCasts_S256_S256x1 : S256.ShapeCasts S256x1
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256_S100000x1_S100000_n_0_0_1_wf : ScatterDims.WF S256 S100000x1 S100000 [] [0] [0] 1
  dot_S5000x256_S5000x128_S256x128_0_0_1_1_n_n_wf : DotDims.WF S5000x256 S5000x128 S256x128 [0] [0] [1] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S256x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S1, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S_, .f32⟩
  | .hbm, ⟨47, _⟩ => ⟨S256x128, .f32⟩
  | .hbm, ⟨48, _⟩ => ⟨S100000x1, .i32⟩
  | .hbm, ⟨49, _⟩ => ⟨S256x128, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S256, .f32⟩
  | .hbm, ⟨54, _⟩ => ⟨S100000x1, .i32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256x1, .f32⟩
  | .hbm, ⟨60, _⟩ => ⟨S256x128, .f32⟩
  | .hbm, ⟨61, _⟩ => ⟨S256x128, .f32⟩
  | .hbm, ⟨62, _⟩ => ⟨S256x1, .f32⟩
  | .hbm, ⟨63, _⟩ => ⟨S1x1, .f32⟩
  | .hbm, ⟨64, _⟩ => ⟨S256x1, .f32⟩
  | .hbm, ⟨65, _⟩ => ⟨S256x1, .f32⟩
  | .hbm, ⟨66, _⟩ => ⟨S256x1, .f32⟩
  | .hbm, ⟨67, _⟩ => ⟨S256x1, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S_, .f32⟩
  | .hbm, ⟨72, _⟩ => ⟨S256x1, .f32⟩
  | .hbm, ⟨73, _⟩ => ⟨S256x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.Reg0.lean ====
/-
  The first linear layer's pallas_call (pipeline 0 of the program), at the buffer contents `V` the region is
  entered from: a 20-point grid, each point taking a 5000-row block of the node features and the whole
  128 × 128 weight matrix, and writing the block's product with the weights into its output block.
  What the body leaves in the output block's buffer, the body's triple, the pipeline's proof data and the
  body obligation at every point.
-/
import proofs.«419784_j30691836297408_1_alg».proof.Proof.Gen.Kernel.Launch
import proofs.«419784_j30691836297408_1_alg».proof.Proof.Gen.Kernel.Skeleton
import proofs.«419784_j30691836297408_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer, fetched once, holds the matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output block's buffer after the body: one store of the whole block, the product of the loaded
    feature block with the loaded weights. -/
def out0_2 (x0 : Vec F S5000x128 .f32) (x1 : Vec F S128x128 .f32) : Vec F S5000x128 .f32 :=
  View.canon [⟨r0_x, k0_pay1 (View.ld x0 r0_x) (View.ld x1 r0_w)⟩]

/-- The one store covers the block. -/
theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole staging memrefs, the inputs' at `x0`, `x1` and the output's at anything, runs to the
    continuation holding the inputs' as they were and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  The second linear layer's pallas_call (pipeline 1 of the program), at the buffer contents `V` the region is
  entered from: a 20-point grid, each point taking a 5000-row block of the first aggregation and the whole
  128 × 128 weight matrix, and writing the product of the block's entrywise maximum with zero and the weights into its output block.
  What the body leaves in the output block's buffer, the body's triple, the pipeline's proof data and the
  body obligation at every point.
-/
import proofs.«419784_j30691836297408_1_alg».proof.Proof.Gen.Kernel.Launch
import proofs.«419784_j30691836297408_1_alg».proof.Proof.Gen.Kernel.Skeleton
import proofs.«419784_j30691836297408_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer, fetched once, holds the matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0

/-- The output block's buffer after the body: one store of the whole block, the product of the loaded
    feature block with the loaded weights. -/
def out1_2 (x0 : Vec F S5000x128 .f32) (x1 : Vec F S128x128 .f32) : Vec F S5000x128 .f32 :=
  View.canon [⟨r1_x, k1_pay1 (View.ld x0 r1_x) (View.ld x1 r1_w)⟩]

/-- The one store covers the block. -/
theorem cover1_2 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
/-- The body on whole staging memrefs, the inputs' at `x0`, `x1` and the output's at anything, runs to the
    continuation holding the inputs' as they were and the output's at `out1_2 x0 x1`. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t`
    each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2A.lean ====
/-
  The pooling pallas_call (pipeline 2 of the program), at the buffer contents `V` the region is entered from: a
  20-point grid; each point takes a 5000-row block of the summed node features and of the graph numbers, and
  adds the block's one-hot product (graph by feature) into a 256 × 128 accumulator it carries from point to point,
  reset at the first point; at the last point the output column is computed from the finished sums, the counts,
  the output weights and the bias.
  This module: the windows' blocks, the body's two conditionals decided over the grid, where the output window is
  idle, the memrefs the body is called on, and the region invariant with the accumulator named.
-/
import proofs.«419784_j30691836297408_1_alg».proof.Proof.Gen.Kernel.Launch
import proofs.«419784_j30691836297408_1_alg».proof.Proof.Gen.Kernel.Skeleton
import proofs.«419784_j30691836297408_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of summed rows: its buffer holds the point's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of graph numbers: its buffer holds the point's block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The column of counts, fetched once, is in its buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output weights, fetched once, are in their buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The bias, fetched once, is in its buffer at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditionals of the body -/

/-- The first conditional: the grid coordinate is 0. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional: the grid coordinate is 19. -/
abbrev cond2_1 (i : grid2.Coords) : Prop := k2_cond2 i = 1#1
/-- It holds at point 19 only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the output window is idle -/

/-- The five inputs are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point nothing is stored into the output block: the window is idle there, -/
theorem idleAt2_5 : ∀ t : Fin cfg2.N, ¬cond2_1 (grid2.coords t) → cfg2.idle 5 (grid2.coords t) = true := by decide +kernel
/-- and the block is not written back there. -/
theorem noFlush2_5 : ∀ t : Fin cfg2.N, ¬cond2_1 (grid2.coords t) → (cfg2.win 5).flush t = false := by decide +kernel
/-- At the last point the output window is live. -/
theorem liveAt2_5 : ∀ t : Fin cfg2.N, cond2_1 (grid2.coords t) → cfg2.idle 5 (grid2.coords t) = false := by decide +kernel

/-! ## The memrefs the body is called on -/

/-- A staging buffer of the output window, through which its contents are stated. -/
abbrev VO2_5 : View sig .tc .vmem S256x1 .f32 := (Memref.whole cc2_stg5_0 : Memref sig .tc .vmem S256x1 .f32).view
/-- Each window's current staging memref at point `t`, as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x1 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S256x128 .f32 := Memref.whole cc2_scratch0
/-- The accumulator as a view: what it holds is stated through it. -/
abbrev VS2_0 : View sig .tc .vmem S256x128 .f32 := scM2_0.view

/-! ## The region invariant with the accumulator named -/

/-- The ten scoped buffers of the other two pallas_calls, each whole at some contents: this region never touches them. -/
def R10 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Eleven conjuncts and one more: the last of the eleven moved out beside the twelfth. -/
theorem sep11_last {M : Type} [URA M] (A0 A1 A2 A3 A4 A5 A6 A7 A8 A9 AS G : sProp M) :
    iprop((A0 ∗ A1 ∗ A2 ∗ A3 ∗ A4 ∗ A5 ∗ A6 ∗ A7 ∗ A8 ∗ A9 ∗ AS) ∗ G) = iprop((A0 ∗ A1 ∗ A2 ∗ A3 ∗ A4 ∗ A5 ∗ A6 ∗ A7 ∗ A8 ∗ A9) ∗ AS ∗ G) := by
  have h₁ : iprop((A0 ∗ A1 ∗ A2 ∗ A3 ∗ A4 ∗ A5 ∗ A6 ∗ A7 ∗ A8 ∗ A9 ∗ AS) ∗ G) ⊢ iprop((A0 ∗ A1 ∗ A2 ∗ A3 ∗ A4 ∗ A5 ∗ A6 ∗ A7 ∗ A8 ∗ A9) ∗ AS ∗ G) := by
    iintro ⟨⟨H0, H1, H2, H3, H4, H5, H6, H7, H8, H9, HS⟩, Hg⟩
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    iexact Hg
  have h₂ : iprop((A0 ∗ A1 ∗ A2 ∗ A3 ∗ A4 ∗ A5 ∗ A6 ∗ A7 ∗ A8 ∗ A9) ∗ AS ∗ G) ⊢ iprop((A0 ∗ A1 ∗ A2 ∗ A3 ∗ A4 ∗ A5 ∗ A6 ∗ A7 ∗ A8 ∗ A9 ∗ AS) ∗ G) := by
    iintro ⟨⟨H0, H1, H2, H3, H4, H5, H6, H7, H8, H9⟩, HS, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iexact Hg
  exact BI.equiv_iff.mp ⟨h₁, h₂⟩

/-- What the launch hands the region: the ten other buffers, the accumulator owned at some contents, and the
    generator register at some state. -/
theorem PhiA2_eq (c : Dev nD) :
    (Pipeline.ΦA spec2 c : sProp 𝕄)
      = iprop(R10 (F := F) c ∗ (∃ d, owns (c : Thread nD τ) scM2_0 fullShare d) ∗ (∃ r, prngReg c r)) := by
  unfold Pipeline.ΦA; rw [scopedRest2_eq]; simp only [scM2_0, owns_whole]; unfold R10
  exact sep11_last _ _ _ _ _ _ _ _ _ _ _ _

end Cert.Kernel.Fr

end
-- ==== Proof.K.Reg2RunA.lean ====
/-
  The pooling kernel's body run at the grid's first point: the accumulator is reset and the first block's
  one-hot product stored into it.
-/
import proofs.«419784_j30691836297408_1_alg».proof.Proof.K.Reg2A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- THE FIRST POINT. The pieces the body's stores leave in the accumulator there (last store first), with the
    body's triple: on whole memrefs, the blocks of rows and of graph numbers at `x0`, `x1`, the other inputs and
    the output block at anything (all handed back as found) and the accumulator at anything, the body runs to the
    continuation holding the accumulator with those pieces written: it is first reset to zeros, then this block's
    one-hot product is added to what was just stored. -/
noncomputable def kernelRun2_A (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : cond2_0 i) (hc1 : ¬cond2_1 i) (x0 : Vec F S5000x128 .f32) (x1 : Vec F S5000x1 .i32) :
    { LS : List (View.Piece (Elt F) S256x128 .f32) //
      ∀ (x2 : Vec F S256x1 .f32) (x3 : Vec F S128x1 .f32) (x4 : Vec F S1x1 .f32) (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, fun x2 x3 x4 xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.K.Reg2RunB.lean ====
/-
  The pooling kernel's body run at a middle point of the grid: the block's one-hot product is added to the
  accumulator.
-/
import proofs.«419784_j30691836297408_1_alg».proof.Proof.K.Reg2RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- A MIDDLE POINT. The pieces the body's one store leaves in the accumulator there, with the body's triple: on
    whole memrefs, the blocks of rows and of graph numbers at `x0`, `x1`, the accumulator at what the point before
    left (`xs`), the other inputs and the output block at anything (handed back as found), the body runs to the
    continuation holding the accumulator with those pieces written: this block's one-hot product added to `xs`. -/
noncomputable def kernelRun2_B (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : ¬cond2_1 i) (x0 : Vec F S5000x128 .f32) (x1 : Vec F S5000x1 .i32) (xs : Vec F S256x128 .f32) :
    { LS : List (View.Piece (Elt F) S256x128 .f32) //
      ∀ (x2 : Vec F S256x1 .f32) (x3 : Vec F S128x1 .f32) (x4 : Vec F S1x1 .f32) (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, fun x2 x3 x4 xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.K.Reg2RunC.lean ====
/-
  The pooling kernel's body run at the grid's last point: the last block's one-hot product is added to the
  accumulator and the output column computed from it.
-/
import proofs.«419784_j30691836297408_1_alg».proof.Proof.K.Reg2RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- THE LAST POINT. The pieces the body's stores leave in the output block and in the accumulator there, with the
    body's triple: on whole memrefs, the five inputs at `x0` … `x4`, the accumulator at what the point before left
    (`xs`) and the output block at anything, the body runs to the continuation holding both with their pieces
    written: the accumulator gets this block's one-hot product added, and the output block the logistic of the
    means' contraction with the weights plus the bias, computed from the accumulator just stored. -/
noncomputable def kernelRun2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) :
    Σ' (L5 : List (View.Piece (Elt F) S256x1 .f32)), { LS : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.K.Reg2D.lean ====
/-
  The pooling pallas_call: what the accumulator and the output block hold after each point (the running sum of
  the blocks' one-hot products; the output column at the last point), the region invariant point by point, and
  the pipeline's proof data.
-/
import proofs.«419784_j30691836297408_1_alg».proof.Proof.K.Reg2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator and the output block hold after the body, case by case -/

/-- The first point's stores cover the accumulator. -/
theorem scover2_A (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : cond2_0 i) (hc1 : ¬cond2_1 i) (x0 : Vec F S5000x128 .f32) (x1 : Vec F S5000x1 .i32) (y : S256x128.Idx) :
    ∃ pc ∈ (kernelRun2_A c i arg1 harg1 arg2 harg2 arg3 harg3 arg4 harg4 arg5 harg5 arg6 harg6 arg7 harg7 hc0 hc1 x0 x1).1, y ∈ pc.1.set :=
  View.cover_of_tiledL (kernelRun2_A c i arg1 harg1 arg2 harg2 arg3 harg3 arg4 harg4 arg5 harg5 arg6 harg6 arg7 harg7 hc0 hc1 x0 x1).1 S256x128.size (by sl_kernel_rfl) y

/-- What the first point leaves in the accumulator: the first block's one-hot product (added to the zeros just stored). -/
def sout2_A (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : cond2_0 i) (hc1 : ¬cond2_1 i) (x0 : Vec F S5000x128 .f32) (x1 : Vec F S5000x1 .i32) : Vec F S256x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1).1)

/-- A middle point's store covers the accumulator. -/
theorem scover2_B (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : ¬cond2_1 i) (x0 : Vec F S5000x128 .f32) (x1 : Vec F S5000x1 .i32) (xs : Vec F S256x128 .f32) (y : S256x128.Idx) :
    ∃ pc ∈ (kernelRun2_B c i arg1 harg1 arg2 harg2 arg3 harg3 arg4 harg4 arg5 harg5 arg6 harg6 arg7 harg7 hc0 hc1 x0 x1 xs).1, y ∈ pc.1.set :=
  View.cover_of_tiledL (kernelRun2_B c i arg1 harg1 arg2 harg2 arg3 harg3 arg4 harg4 arg5 harg5 arg6 harg6 arg7 harg7 hc0 hc1 x0 x1 xs).1 S256x128.size (by sl_kernel_rfl) y

/-- What a middle point leaves in the accumulator: the block's one-hot product added to what it held. -/
def sout2_B (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : ¬cond2_1 i) (x0 : Vec F S5000x128 .f32) (x1 : Vec F S5000x1 .i32) (xs : Vec F S256x128 .f32) : Vec F S256x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 xs).1)

/-- The last point's store into the output block covers it. -/
theorem cover2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) (y : S256x1.Idx) :
    ∃ pc ∈ (kernelRun2_C c i arg1 harg1 arg2 harg2 arg3 harg3 arg4 harg4 arg5 harg5 arg6 harg6 arg7 harg7 hc0 hc1 x0 x1 x2 x3 x4 xs).1, y ∈ pc.1.set :=
  View.cover_of_tiledL (kernelRun2_C c i arg1 harg1 arg2 harg2 arg3 harg3 arg4 harg4 arg5 harg5 arg6 harg6 arg7 harg7 hc0 hc1 x0 x1 x2 x3 x4 xs).1 S256x1.size (by sl_kernel_rfl) y

/-- What the last point leaves in the output block: the logistic column computed from the finished sums. -/
def out2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) : Vec F S256x1 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs).1)

/-- The last point's store into the accumulator covers it. -/
theorem scover2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) (y : S256x128.Idx) :
    ∃ pc ∈ (kernelRun2_C c i arg1 harg1 arg2 harg2 arg3 harg3 arg4 harg4 arg5 harg5 arg6 harg6 arg7 harg7 hc0 hc1 x0 x1 x2 x3 x4 xs).2.1, y ∈ pc.1.set :=
  View.cover_of_tiledL (kernelRun2_C c i arg1 harg1 arg2 harg2 arg3 harg3 arg4 harg4 arg5 harg5 arg6 harg6 arg7 harg7 hc0 hc1 x0 x1 x2 x3 x4 xs).2.1 S256x128.size (by sl_kernel_rfl) y

/-- What the last point leaves in the accumulator: the last block's one-hot product added to what it held. -/
def sout2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) : Vec F S256x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs).2.1)

/-- Away from the last point nothing is stored into the output block; this stands for its contents there, which
    nothing reads (the block is neither written back nor handed on). -/
def out2_idle : Vec F S256x1 .f32 := VO2_5.read (Elt F) VO2_5.junk

/-! ## Point by point -/

theorem c0_zero (hn : 0 < cfg2.N) : cond2_0 (grid2.coords ⟨0, hn⟩) := (hcond2_0 ⟨0, hn⟩).mpr (Nat.zero_mod _)
theorem not_c1_zero (hn : 0 < cfg2.N) : ¬cond2_1 (grid2.coords ⟨0, hn⟩) := fun h => by
  have h' := (hcond2_1 ⟨0, hn⟩).mp h
  dsimp only at h'; omega
theorem not_c0_succ (n : ℕ) (hn : n + 1 < cfg2.N) : ¬cond2_0 (grid2.coords ⟨n + 1, hn⟩) := fun h => by
  have h' := (hcond2_0 ⟨n + 1, hn⟩).mp h
  have hN : n + 1 < 20 := lt_of_lt_of_eq hn (show cfg2.N = 20 from N_2)
  dsimp only at h'; omega

/-- THE ACCUMULATION. What the output block's buffer and the accumulator hold after the body at position `n`:
    at the first point the accumulator is the first block's one-hot product; at each later point the block's
    product is added to what the point before left; the output block is stored at the last point only, from the
    accumulator then finished. -/
def outsAt2 (c : Dev nD) : (n : ℕ) → n < cfg2.N → Vec F S256x1 .f32 × Vec F S256x128 .f32
  | 0, hn => (out2_idle, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (c0_zero hn) (not_c1_zero hn) (iblk2 V c 0 ⟨0, hn⟩) (iblk2 V c 1 ⟨0, hn⟩))
  | n + 1, hn =>
    if h1 : (n + 1) % 20 = 19 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (not_c0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (not_c0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
    else
      (out2_idle, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (not_c0_succ n hn) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val % 20 = 0) (h1 : ¬t.val % 20 = 19) :
    outsAt2 V c t.val t.isLt = (out2_idle, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd ((hcond2_0 ⟨n + 1, hn⟩).mpr h0) (not_c0_succ n hn)

/-- At a middle point: over what the point before left. -/
theorem outsAt2_B (c : Dev nD) (t : Fin cfg2.N) (h0 : ¬t.val % 20 = 0) (h1 : ¬t.val % 20 = 19) :
    outsAt2 V c t.val t.isLt = (out2_idle, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

/-- At the last point: over what the point before left. -/
theorem outsAt2_C (c : Dev nD) (t : Fin cfg2.N) (h0 : ¬t.val % 20 = 0) (h1 : t.val % 20 = 19) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The region invariant -/

/-- Before position `n`: at the start what the launch hands over (the accumulator at anything); afterwards the
    ten other buffers as they were, the accumulator at the running sum the point before left, and the generator
    register at some state. -/
def PhiS2 (c : Dev nD) : (n : ℕ) → n ≤ cfg2.N → sProp 𝕄
  | 0, _ => Pipeline.ΦA spec2 c
  | n + 1, hn => iprop(R10 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(R10 (F := F) c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(R10 (F := F) c ∗ owns (c : Thread nD τ) scM2_0 fullShare ((outsAt2 V c (n - 1) (by omega)).2) ∗ (∃ r, prngReg c r)) := by
  cases n with
  | zero => exact absurd rfl hz
  | succ n => rfl

/-! ## The proof data -/

/-- The proof data of pipeline 2 on core `c`: the arrays as the region finds them; after the body at point `t`
    each input's buffer at its block and the output's at what `outsAt2` says; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.Kernel.Fr

end
-- ==== Proof.K.Reg2.lean ====
/-
  The pooling pallas_call: the body's triple at a generic point of the grid — the first, a middle one or the
  last — against the region invariant that carries the accumulator's running sum; the body obligation at every
  point; and the invariant's two ends, what the launch hands over and what it takes back.
-/
import proofs.«419784_j30691836297408_1_alg».proof.Proof.K.Reg2D

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the point is the first, a middle one or the last,
    and that case's run applies. The invariant hands the body the accumulator at the running sum the point before
    left (at anything at the first point) and takes it back at this point's running sum, the stores covering it;
    the ten buffers of the other calls and the generator register pass through; away from the last point the
    output block's buffer is handed back as found, at the last point it is covered by the body's store. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 20 = 0
  · have h1 : ¬t.val % 20 = 19 := by omega
    have hz : t.val = 0 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    rw [PhiS2_castSucc V c t, PhiS2_zero V c _ _ hz, PhiA2_eq]
    iintro ⟨⟨HR, HS0, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t)).2 (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover2_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 20 = 19
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨HR, HS0, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover2_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨HR, HS0, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) _).2 (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover2_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HR, HS0, Hg⟩
  isplitl [HR]; · iexact HR
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Fr

end
-- ==== Proof.K.Run.lean ====
/-
  The program's run: its three host stretches and three pallas_calls in order.  The buffer contents at every
  boundary are a fold from the launch memory — a host stretch applies its operations, a pallas_call leaves its
  output array at what its write-backs fold to and every other buffer as it was —; every final memory holds
  each unscoped buffer at the fold's last stage, each argument array as launched, and the result array at the
  pooling kernel's folded write-back.
-/
import proofs.«419784_j30691836297408_1_alg».proof.Proof.K.Reg0
import proofs.«419784_j30691836297408_1_alg».proof.Proof.K.Reg1
import proofs.«419784_j30691836297408_1_alg».proof.Proof.K.Reg2
import proofs.«419784_j30691836297408_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h

/-- The same read at the TensorCore's references (what pipeline 0's proof data take). -/
abbrev V1 : (c : Dev nD) → (b : Ref sig .tc) → Buf (Elt F) ((c : Thread nD τ).loc b) := fun c b => W1 m ρ c b
/-- At pipeline 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
theorem W3_of (c : Dev nD) (r : Ref sig .tc) (h : r ∉ hostOps1_W) : W3 m ρ c r = W2 m ρ c r :=
  StableHlo.after_of_writes_sub hostOps1 _ hostOps1_writes h

/-- The same read at the TensorCore's references (what pipeline 1's proof data take). -/
abbrev V3 : (c : Dev nD) → (b : Ref sig .tc) → Buf (Elt F) ((c : Thread nD τ).loc b) := fun c b => W3 m ρ c b
/-- At pipeline 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
theorem W5_of (c : Dev nD) (r : Ref sig .tc) (h : r ∉ hostOps2_W) : W5 m ρ c r = W4 m ρ c r :=
  StableHlo.after_of_writes_sub hostOps2 _ hostOps2_writes h

/-- The same read at the TensorCore's references (what pipeline 2's proof data take). -/
abbrev V5 : (c : Dev nD) → (b : Ref sig .tc) → Buf (Elt F) ((c : Thread nD τ).loc b) := fun c b => W5 m ρ c b
/-- At pipeline 2's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! The argument arrays end as launched: no host operation writes one, a pallas_call reads it through an input
    window or not at all. -/
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <|
    (W3_of m ρ c main_arg0 (by decide)).trans <| ((W2_arr m ρ c 0).trans (((dat0 (V1 m ρ) c).arrAt_in 0 rfl _).trans (A_eq0 (V1 m ρ) c 0))).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <|
    (W3_of m ρ c main_arg1 (by decide)).trans <| (W2_of_ne m ρ c main_arg1 (by decide)).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <|
    (W3_of m ρ c main_arg2 (by decide)).trans <| (W2_of_ne m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <|
    (W3_of m ρ c main_arg3 (by decide)).trans <| ((W2_arr m ρ c 1).trans (((dat0 (V1 m ρ) c).arrAt_in 1 rfl _).trans (A_eq0 (V1 m ρ) c 1))).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| ((W4_arr m ρ c 1).trans (((dat1 (V3 m ρ) c).arrAt_in 1 rfl _).trans (A_eq1 (V3 m ρ) c 1))).trans <|
    (W3_of m ρ c main_arg4 (by decide)).trans <| (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  ((W6_arr m ρ c 3).trans (((dat2 (V5 m ρ) c).arrAt_in 3 rfl _).trans (A_eq2 (V5 m ρ) c 3))).trans <| (W5_of m ρ c main_arg5 (by decide)).trans <| (W4_of_ne m ρ c main_arg5 (by decide)).trans <|
    (W3_of m ρ c main_arg5 (by decide)).trans <| (W2_of_ne m ρ c main_arg5 (by decide)).trans <| (W1_of m ρ c main_arg5 (by decide)).trans rfl
theorem W6_main_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <|
    (W3_of m ρ c main_arg6 (by decide)).trans <| (W2_of_ne m ρ c main_arg6 (by decide)).trans <| (W1_of m ρ c main_arg6 (by decide)).trans rfl

/-- The result array ends at what the pooling kernel's write-backs fold to. -/
theorem W6_main_v33 (c : Dev nD) : W6 m ρ c (Proc.devRef .tc main_v33) = (dat2 (V5 m ρ) c).arrAt 5 cfg2.N := W6_arr m ρ c 5

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- The pallas_call of pipeline 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call of pipeline 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call of pipeline 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : iprop(Pipeline.scopedRest spec2 c ∗ ∃ r, prngReg c r) ⊢ ((pdats m ρ 2 c).Φ 0 : sProp 𝕄) := hin2 (V5 m ρ) c
    iintro ⟨Hp, -, Hr⟩
    iapply h2
    isplitl [Hr]; · iexact Hr
    iexact Hp
  hout c := by
    rw [Pipeline.ownSems0_none]
    have h : (iprop(Pipeline.scopedRest spec2 c ∗ ∃ r, prngReg c r) : sProp 𝕄) ⊢ iprop((∃ r, prngReg c r) ∗ emp ∗ Pipeline.scopedRest spec2 c) := by
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and every final memory holds each unscoped buffer at the fold's last stage. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Fr

end
-- ==== Proof.KI.Reg0.lean ====
/-
  The first linear layer's pallas_call (pipeline 0 of the program), at the buffer contents `V` the region is
  entered from: a 20-point grid, each point taking a 5000-row block of the node features and the whole
  128 × 128 weight matrix, and writing the block's product with the weights into its output block.
  What the body leaves in the output block's buffer, the body's triple, the pipeline's proof data and the
  body obligation at every point.
-/
import proofs.«419784_j30691836297408_1_alg».proof.Proof.Gen.KernelIdeal.Launch
import proofs.«419784_j30691836297408_1_alg».proof.Proof.Gen.KernelIdeal.Skeleton
import proofs.«419784_j30691836297408_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer, fetched once, holds the matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output block's buffer after the body: one store of the whole block, the product of the loaded
    feature block with the loaded weights. -/
def out0_2 (x0 : Vec F S5000x128 .f32) (x1 : Vec F S128x128 .f32) : Vec F S5000x128 .f32 :=
  View.canon [⟨r0_x, k0_pay1 (View.ld x0 r0_x) (View.ld x1 r0_w)⟩]

/-- The one store covers the block. -/
theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole staging memrefs, the inputs' at `x0`, `x1` and the output's at anything, runs to the
    continuation holding the inputs' as they were and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  The second linear layer's pallas_call (pipeline 1 of the program), at the buffer contents `V` the region is
  entered from: a 20-point grid, each point taking a 5000-row block of the first aggregation and the whole
  128 × 128 weight matrix, and writing the product of the block's entrywise maximum with zero and the weights into its output block.
  What the body leaves in the output block's buffer, the body's triple, the pipeline's proof data and the
  body obligation at every point.
-/
import proofs.«419784_j30691836297408_1_alg».proof.Proof.Gen.KernelIdeal.Launch
import proofs.«419784_j30691836297408_1_alg».proof.Proof.Gen.KernelIdeal.Skeleton
import proofs.«419784_j30691836297408_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer, fetched once, holds the matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0

/-- The output block's buffer after the body: one store of the whole block, the product of the loaded
    feature block with the loaded weights. -/
def out1_2 (x0 : Vec F S5000x128 .f32) (x1 : Vec F S128x128 .f32) : Vec F S5000x128 .f32 :=
  View.canon [⟨r1_x, k1_pay1 (View.ld x0 r1_x) (View.ld x1 r1_w)⟩]

/-- The one store covers the block. -/
theorem cover1_2 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
/-- The body on whole staging memrefs, the inputs' at `x0`, `x1` and the output's at anything, runs to the
    continuation holding the inputs' as they were and the output's at `out1_2 x0 x1`. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t`
    each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2A.lean ====
/-
  The pooling pallas_call (pipeline 2 of the program), at the buffer contents `V` the region is entered from: a
  20-point grid; each point takes a 5000-row block of the summed node features and of the graph numbers, and
  adds the block's one-hot product (graph by feature) into a 256 × 128 accumulator it carries from point to point,
  reset at the first point; at the last point the output column is computed from the finished sums, the counts,
  the output weights and the bias.
  This module: the windows' blocks, the body's two conditionals decided over the grid, where the output window is
  idle, the memrefs the body is called on, and the region invariant with the accumulator named.
-/
import proofs.«419784_j30691836297408_1_alg».proof.Proof.Gen.KernelIdeal.Launch
import proofs.«419784_j30691836297408_1_alg».proof.Proof.Gen.KernelIdeal.Skeleton
import proofs.«419784_j30691836297408_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of summed rows: its buffer holds the point's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of graph numbers: its buffer holds the point's block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The column of counts, fetched once, is in its buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output weights, fetched once, are in their buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The bias, fetched once, is in its buffer at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditionals of the body -/

/-- The first conditional: the grid coordinate is 0. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional: the grid coordinate is 19. -/
abbrev cond2_1 (i : grid2.Coords) : Prop := k2_cond2 i = 1#1
/-- It holds at point 19 only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the output window is idle -/

/-- The five inputs are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point nothing is stored into the output block: the window is idle there, -/
theorem idleAt2_5 : ∀ t : Fin cfg2.N, ¬cond2_1 (grid2.coords t) → cfg2.idle 5 (grid2.coords t) = true := by decide +kernel
/-- and the block is not written back there. -/
theorem noFlush2_5 : ∀ t : Fin cfg2.N, ¬cond2_1 (grid2.coords t) → (cfg2.win 5).flush t = false := by decide +kernel
/-- At the last point the output window is live. -/
theorem liveAt2_5 : ∀ t : Fin cfg2.N, cond2_1 (grid2.coords t) → cfg2.idle 5 (grid2.coords t) = false := by decide +kernel

/-! ## The memrefs the body is called on -/

/-- A staging buffer of the output window, through which its contents are stated. -/
abbrev VO2_5 : View sig .tc .vmem S256x1 .f32 := (Memref.whole cc2_stg5_0 : Memref sig .tc .vmem S256x1 .f32).view
/-- Each window's current staging memref at point `t`, as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x1 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S256x128 .f32 := Memref.whole cc2_scratch0
/-- The accumulator as a view: what it holds is stated through it. -/
abbrev VS2_0 : View sig .tc .vmem S256x128 .f32 := scM2_0.view

/-! ## The region invariant with the accumulator named -/

/-- The ten scoped buffers of the other two pallas_calls, each whole at some contents: this region never touches them. -/
def R10 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Eleven conjuncts and one more: the last of the eleven moved out beside the twelfth. -/
theorem sep11_last {M : Type} [URA M] (A0 A1 A2 A3 A4 A5 A6 A7 A8 A9 AS G : sProp M) :
    iprop((A0 ∗ A1 ∗ A2 ∗ A3 ∗ A4 ∗ A5 ∗ A6 ∗ A7 ∗ A8 ∗ A9 ∗ AS) ∗ G) = iprop((A0 ∗ A1 ∗ A2 ∗ A3 ∗ A4 ∗ A5 ∗ A6 ∗ A7 ∗ A8 ∗ A9) ∗ AS ∗ G) := by
  have h₁ : iprop((A0 ∗ A1 ∗ A2 ∗ A3 ∗ A4 ∗ A5 ∗ A6 ∗ A7 ∗ A8 ∗ A9 ∗ AS) ∗ G) ⊢ iprop((A0 ∗ A1 ∗ A2 ∗ A3 ∗ A4 ∗ A5 ∗ A6 ∗ A7 ∗ A8 ∗ A9) ∗ AS ∗ G) := by
    iintro ⟨⟨H0, H1, H2, H3, H4, H5, H6, H7, H8, H9, HS⟩, Hg⟩
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    iexact Hg
  have h₂ : iprop((A0 ∗ A1 ∗ A2 ∗ A3 ∗ A4 ∗ A5 ∗ A6 ∗ A7 ∗ A8 ∗ A9) ∗ AS ∗ G) ⊢ iprop((A0 ∗ A1 ∗ A2 ∗ A3 ∗ A4 ∗ A5 ∗ A6 ∗ A7 ∗ A8 ∗ A9 ∗ AS) ∗ G) := by
    iintro ⟨⟨H0, H1, H2, H3, H4, H5, H6, H7, H8, H9⟩, HS, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iexact Hg
  exact BI.equiv_iff.mp ⟨h₁, h₂⟩

/-- What the launch hands the region: the ten other buffers, the accumulator owned at some contents, and the
    generator register at some state. -/
theorem PhiA2_eq (c : Dev nD) :
    (Pipeline.ΦA spec2 c : sProp 𝕄)
      = iprop(R10 (F := F) c ∗ (∃ d, owns (c : Thread nD τ) scM2_0 fullShare d) ∗ (∃ r, prngReg c r)) := by
  unfold Pipeline.ΦA; rw [scopedRest2_eq]; simp only [scM2_0, owns_whole]; unfold R10
  exact sep11_last _ _ _ _ _ _ _ _ _ _ _ _

end Cert.KernelIdeal.Fr

end
-- ==== Proof.KI.Reg2RunA.lean ====
/-
  The pooling kernel's body run at the grid's first point: the accumulator is reset and the first block's
  one-hot product stored into it.
-/
import proofs.«419784_j30691836297408_1_alg».proof.Proof.KI.Reg2A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- THE FIRST POINT. The pieces the body's stores leave in the accumulator there (last store first), with the
    body's triple: on whole memrefs, the blocks of rows and of graph numbers at `x0`, `x1`, the other inputs and
    the output block at anything (all handed back as found) and the accumulator at anything, the body runs to the
    continuation holding the accumulator with those pieces written: it is first reset to zeros, then this block's
    one-hot product is added to what was just stored. -/
noncomputable def kernelRun2_A (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : cond2_0 i) (hc1 : ¬cond2_1 i) (x0 : Vec F S5000x128 .f32) (x1 : Vec F S5000x1 .i32) :
    { LS : List (View.Piece (Elt F) S256x128 .f32) //
      ∀ (x2 : Vec F S256x1 .f32) (x3 : Vec F S128x1 .f32) (x4 : Vec F S1x1 .f32) (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, fun x2 x3 x4 xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KI.Reg2RunB.lean ====
/-
  The pooling kernel's body run at a middle point of the grid: the block's one-hot product is added to the
  accumulator.
-/
import proofs.«419784_j30691836297408_1_alg».proof.Proof.KI.Reg2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- A MIDDLE POINT. The pieces the body's one store leaves in the accumulator there, with the body's triple: on
    whole memrefs, the blocks of rows and of graph numbers at `x0`, `x1`, the accumulator at what the point before
    left (`xs`), the other inputs and the output block at anything (handed back as found), the body runs to the
    continuation holding the accumulator with those pieces written: this block's one-hot product added to `xs`. -/
noncomputable def kernelRun2_B (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : ¬cond2_1 i) (x0 : Vec F S5000x128 .f32) (x1 : Vec F S5000x1 .i32) (xs : Vec F S256x128 .f32) :
    { LS : List (View.Piece (Elt F) S256x128 .f32) //
      ∀ (x2 : Vec F S256x1 .f32) (x3 : Vec F S128x1 .f32) (x4 : Vec F S1x1 .f32) (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, fun x2 x3 x4 xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KI.Reg2RunC.lean ====
/-
  The pooling kernel's body run at the grid's last point: the last block's one-hot product is added to the
  accumulator and the output column computed from it.
-/
import proofs.«419784_j30691836297408_1_alg».proof.Proof.KI.Reg2RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- THE LAST POINT. The pieces the body's stores leave in the output block and in the accumulator there, with the
    body's triple: on whole memrefs, the five inputs at `x0` … `x4`, the accumulator at what the point before left
    (`xs`) and the output block at anything, the body runs to the continuation holding both with their pieces
    written: the accumulator gets this block's one-hot product added, and the output block the logistic of the
    means' contraction with the weights plus the bias, computed from the accumulator just stored. -/
noncomputable def kernelRun2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) :
    Σ' (L5 : List (View.Piece (Elt F) S256x1 .f32)), { LS : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.KI.Reg2D.lean ====
/-
  The pooling pallas_call: what the accumulator and the output block hold after each point (the running sum of
  the blocks' one-hot products; the output column at the last point), the region invariant point by point, and
  the pipeline's proof data.
-/
import proofs.«419784_j30691836297408_1_alg».proof.Proof.KI.Reg2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator and the output block hold after the body, case by case -/

/-- The first point's stores cover the accumulator. -/
theorem scover2_A (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : cond2_0 i) (hc1 : ¬cond2_1 i) (x0 : Vec F S5000x128 .f32) (x1 : Vec F S5000x1 .i32) (y : S256x128.Idx) :
    ∃ pc ∈ (kernelRun2_A c i arg1 harg1 arg2 harg2 arg3 harg3 arg4 harg4 arg5 harg5 arg6 harg6 arg7 harg7 hc0 hc1 x0 x1).1, y ∈ pc.1.set :=
  View.cover_of_tiledL (kernelRun2_A c i arg1 harg1 arg2 harg2 arg3 harg3 arg4 harg4 arg5 harg5 arg6 harg6 arg7 harg7 hc0 hc1 x0 x1).1 S256x128.size (by sl_kernel_rfl) y

/-- What the first point leaves in the accumulator: the first block's one-hot product (added to the zeros just stored). -/
def sout2_A (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : cond2_0 i) (hc1 : ¬cond2_1 i) (x0 : Vec F S5000x128 .f32) (x1 : Vec F S5000x1 .i32) : Vec F S256x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1).1)

/-- A middle point's store covers the accumulator. -/
theorem scover2_B (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : ¬cond2_1 i) (x0 : Vec F S5000x128 .f32) (x1 : Vec F S5000x1 .i32) (xs : Vec F S256x128 .f32) (y : S256x128.Idx) :
    ∃ pc ∈ (kernelRun2_B c i arg1 harg1 arg2 harg2 arg3 harg3 arg4 harg4 arg5 harg5 arg6 harg6 arg7 harg7 hc0 hc1 x0 x1 xs).1, y ∈ pc.1.set :=
  View.cover_of_tiledL (kernelRun2_B c i arg1 harg1 arg2 harg2 arg3 harg3 arg4 harg4 arg5 harg5 arg6 harg6 arg7 harg7 hc0 hc1 x0 x1 xs).1 S256x128.size (by sl_kernel_rfl) y

/-- What a middle point leaves in the accumulator: the block's one-hot product added to what it held. -/
def sout2_B (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : ¬cond2_1 i) (x0 : Vec F S5000x128 .f32) (x1 : Vec F S5000x1 .i32) (xs : Vec F S256x128 .f32) : Vec F S256x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 xs).1)

/-- The last point's store into the output block covers it. -/
theorem cover2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) (y : S256x1.Idx) :
    ∃ pc ∈ (kernelRun2_C c i arg1 harg1 arg2 harg2 arg3 harg3 arg4 harg4 arg5 harg5 arg6 harg6 arg7 harg7 hc0 hc1 x0 x1 x2 x3 x4 xs).1, y ∈ pc.1.set :=
  View.cover_of_tiledL (kernelRun2_C c i arg1 harg1 arg2 harg2 arg3 harg3 arg4 harg4 arg5 harg5 arg6 harg6 arg7 harg7 hc0 hc1 x0 x1 x2 x3 x4 xs).1 S256x1.size (by sl_kernel_rfl) y

/-- What the last point leaves in the output block: the logistic column computed from the finished sums. -/
def out2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) : Vec F S256x1 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs).1)

/-- The last point's store into the accumulator covers it. -/
theorem scover2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) (y : S256x128.Idx) :
    ∃ pc ∈ (kernelRun2_C c i arg1 harg1 arg2 harg2 arg3 harg3 arg4 harg4 arg5 harg5 arg6 harg6 arg7 harg7 hc0 hc1 x0 x1 x2 x3 x4 xs).2.1, y ∈ pc.1.set :=
  View.cover_of_tiledL (kernelRun2_C c i arg1 harg1 arg2 harg2 arg3 harg3 arg4 harg4 arg5 harg5 arg6 harg6 arg7 harg7 hc0 hc1 x0 x1 x2 x3 x4 xs).2.1 S256x128.size (by sl_kernel_rfl) y

/-- What the last point leaves in the accumulator: the last block's one-hot product added to what it held. -/
def sout2_C (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬cond2_0 i) (hc1 : cond2_1 i) (x0 : Vec F S5000x128 .f32) (x1 : Vec F S5000x1 .i32) (x2 : Vec F S256x1 .f32) (x3 : Vec F S128x1 .f32) (x4 : Vec F S1x1 .f32)
    (xs : Vec F S256x128 .f32) : Vec F S256x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs).2.1)

/-- Away from the last point nothing is stored into the output block; this stands for its contents there, which
    nothing reads (the block is neither written back nor handed on). -/
def out2_idle : Vec F S256x1 .f32 := VO2_5.read (Elt F) VO2_5.junk

/-! ## Point by point -/

theorem c0_zero (hn : 0 < cfg2.N) : cond2_0 (grid2.coords ⟨0, hn⟩) := (hcond2_0 ⟨0, hn⟩).mpr (Nat.zero_mod _)
theorem not_c1_zero (hn : 0 < cfg2.N) : ¬cond2_1 (grid2.coords ⟨0, hn⟩) := fun h => by
  have h' := (hcond2_1 ⟨0, hn⟩).mp h
  dsimp only at h'; omega
theorem not_c0_succ (n : ℕ) (hn : n + 1 < cfg2.N) : ¬cond2_0 (grid2.coords ⟨n + 1, hn⟩) := fun h => by
  have h' := (hcond2_0 ⟨n + 1, hn⟩).mp h
  have hN : n + 1 < 20 := lt_of_lt_of_eq hn (show cfg2.N = 20 from N_2)
  dsimp only at h'; omega

/-- THE ACCUMULATION. What the output block's buffer and the accumulator hold after the body at position `n`:
    at the first point the accumulator is the first block's one-hot product; at each later point the block's
    product is added to what the point before left; the output block is stored at the last point only, from the
    accumulator then finished. -/
def outsAt2 (c : Dev nD) : (n : ℕ) → n < cfg2.N → Vec F S256x1 .f32 × Vec F S256x128 .f32
  | 0, hn => (out2_idle, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (c0_zero hn) (not_c1_zero hn) (iblk2 V c 0 ⟨0, hn⟩) (iblk2 V c 1 ⟨0, hn⟩))
  | n + 1, hn =>
    if h1 : (n + 1) % 20 = 19 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (not_c0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (not_c0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
    else
      (out2_idle, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (not_c0_succ n hn) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val % 20 = 0) (h1 : ¬t.val % 20 = 19) :
    outsAt2 V c t.val t.isLt = (out2_idle, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd ((hcond2_0 ⟨n + 1, hn⟩).mpr h0) (not_c0_succ n hn)

/-- At a middle point: over what the point before left. -/
theorem outsAt2_B (c : Dev nD) (t : Fin cfg2.N) (h0 : ¬t.val % 20 = 0) (h1 : ¬t.val % 20 = 19) :
    outsAt2 V c t.val t.isLt = (out2_idle, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

/-- At the last point: over what the point before left. -/
theorem outsAt2_C (c : Dev nD) (t : Fin cfg2.N) (h0 : ¬t.val % 20 = 0) (h1 : t.val % 20 = 19) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The region invariant -/

/-- Before position `n`: at the start what the launch hands over (the accumulator at anything); afterwards the
    ten other buffers as they were, the accumulator at the running sum the point before left, and the generator
    register at some state. -/
def PhiS2 (c : Dev nD) : (n : ℕ) → n ≤ cfg2.N → sProp 𝕄
  | 0, _ => Pipeline.ΦA spec2 c
  | n + 1, hn => iprop(R10 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(R10 (F := F) c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(R10 (F := F) c ∗ owns (c : Thread nD τ) scM2_0 fullShare ((outsAt2 V c (n - 1) (by omega)).2) ∗ (∃ r, prngReg c r)) := by
  cases n with
  | zero => exact absurd rfl hz
  | succ n => rfl

/-! ## The proof data -/

/-- The proof data of pipeline 2 on core `c`: the arrays as the region finds them; after the body at point `t`
    each input's buffer at its block and the output's at what `outsAt2` says; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.KernelIdeal.Fr

end
-- ==== Proof.KI.Reg2.lean ====
/-
  The pooling pallas_call: the body's triple at a generic point of the grid — the first, a middle one or the
  last — against the region invariant that carries the accumulator's running sum; the body obligation at every
  point; and the invariant's two ends, what the launch hands over and what it takes back.
-/
import proofs.«419784_j30691836297408_1_alg».proof.Proof.KI.Reg2D

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the point is the first, a middle one or the last,
    and that case's run applies. The invariant hands the body the accumulator at the running sum the point before
    left (at anything at the first point) and takes it back at this point's running sum, the stores covering it;
    the ten buffers of the other calls and the generator register pass through; away from the last point the
    output block's buffer is handed back as found, at the last point it is covered by the body's store. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 20 = 0
  · have h1 : ¬t.val % 20 = 19 := by omega
    have hz : t.val = 0 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    rw [PhiS2_castSucc V c t, PhiS2_zero V c _ _ hz, PhiA2_eq]
    iintro ⟨⟨HR, HS0, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t)).2 (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover2_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 20 = 19
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨HR, HS0, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover2_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨HR, HS0, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) _).2 (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover2_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HR, HS0, Hg⟩
  isplitl [HR]; · iexact HR
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Fr

end
-- ==== Proof.KI.Run.lean ====
/-
  The program's run: its three host stretches and three pallas_calls in order.  The buffer contents at every
  boundary are a fold from the launch memory — a host stretch applies its operations, a pallas_call leaves its
  output array at what its write-backs fold to and every other buffer as it was —; every final memory holds
  each unscoped buffer at the fold's last stage, each argument array as launched, and the result array at the
  pooling kernel's folded write-back.
-/
import proofs.«419784_j30691836297408_1_alg».proof.Proof.KI.Reg0
import proofs.«419784_j30691836297408_1_alg».proof.Proof.KI.Reg1
import proofs.«419784_j30691836297408_1_alg».proof.Proof.KI.Reg2
import proofs.«419784_j30691836297408_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h

/-- The same read at the TensorCore's references (what pipeline 0's proof data take). -/
abbrev V1 : (c : Dev nD) → (b : Ref sig .tc) → Buf (Elt F) ((c : Thread nD τ).loc b) := fun c b => W1 m ρ c b
/-- At pipeline 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
theorem W3_of (c : Dev nD) (r : Ref sig .tc) (h : r ∉ hostOps1_W) : W3 m ρ c r = W2 m ρ c r :=
  StableHlo.after_of_writes_sub hostOps1 _ hostOps1_writes h

/-- The same read at the TensorCore's references (what pipeline 1's proof data take). -/
abbrev V3 : (c : Dev nD) → (b : Ref sig .tc) → Buf (Elt F) ((c : Thread nD τ).loc b) := fun c b => W3 m ρ c b
/-- At pipeline 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
theorem W5_of (c : Dev nD) (r : Ref sig .tc) (h : r ∉ hostOps2_W) : W5 m ρ c r = W4 m ρ c r :=
  StableHlo.after_of_writes_sub hostOps2 _ hostOps2_writes h

/-- The same read at the TensorCore's references (what pipeline 2's proof data take). -/
abbrev V5 : (c : Dev nD) → (b : Ref sig .tc) → Buf (Elt F) ((c : Thread nD τ).loc b) := fun c b => W5 m ρ c b
/-- At pipeline 2's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! The argument arrays end as launched: no host operation writes one, a pallas_call reads it through an input
    window or not at all. -/
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <|
    (W3_of m ρ c main_arg0 (by decide)).trans <| ((W2_arr m ρ c 0).trans (((dat0 (V1 m ρ) c).arrAt_in 0 rfl _).trans (A_eq0 (V1 m ρ) c 0))).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <|
    (W3_of m ρ c main_arg1 (by decide)).trans <| (W2_of_ne m ρ c main_arg1 (by decide)).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <|
    (W3_of m ρ c main_arg2 (by decide)).trans <| (W2_of_ne m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <|
    (W3_of m ρ c main_arg3 (by decide)).trans <| ((W2_arr m ρ c 1).trans (((dat0 (V1 m ρ) c).arrAt_in 1 rfl _).trans (A_eq0 (V1 m ρ) c 1))).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| ((W4_arr m ρ c 1).trans (((dat1 (V3 m ρ) c).arrAt_in 1 rfl _).trans (A_eq1 (V3 m ρ) c 1))).trans <|
    (W3_of m ρ c main_arg4 (by decide)).trans <| (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  ((W6_arr m ρ c 3).trans (((dat2 (V5 m ρ) c).arrAt_in 3 rfl _).trans (A_eq2 (V5 m ρ) c 3))).trans <| (W5_of m ρ c main_arg5 (by decide)).trans <| (W4_of_ne m ρ c main_arg5 (by decide)).trans <|
    (W3_of m ρ c main_arg5 (by decide)).trans <| (W2_of_ne m ρ c main_arg5 (by decide)).trans <| (W1_of m ρ c main_arg5 (by decide)).trans rfl
theorem W6_main_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <|
    (W3_of m ρ c main_arg6 (by decide)).trans <| (W2_of_ne m ρ c main_arg6 (by decide)).trans <| (W1_of m ρ c main_arg6 (by decide)).trans rfl

/-- The result array ends at what the pooling kernel's write-backs fold to. -/
theorem W6_main_v33 (c : Dev nD) : W6 m ρ c (Proc.devRef .tc main_v33) = (dat2 (V5 m ρ) c).arrAt 5 cfg2.N := W6_arr m ρ c 5

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- The pallas_call of pipeline 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call of pipeline 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call of pipeline 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : iprop(Pipeline.scopedRest spec2 c ∗ ∃ r, prngReg c r) ⊢ ((pdats m ρ 2 c).Φ 0 : sProp 𝕄) := hin2 (V5 m ρ) c
    iintro ⟨Hp, -, Hr⟩
    iapply h2
    isplitl [Hr]; · iexact Hr
    iexact Hp
  hout c := by
    rw [Pipeline.ownSems0_none]
    have h : (iprop(Pipeline.scopedRest spec2 c ∗ ∃ r, prngReg c r) : sProp 𝕄) ⊢ iprop((∃ r, prngReg c r) ∗ emp ∗ Pipeline.scopedRest spec2 c) := by
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and every final memory holds each unscoped buffer at the fold's last stage. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Fr

end
-- ==== Proof.Frames.lean ====
/-
  The three frame claims: each program, from any memory with zero counters, runs to the end, nothing
  faulting, and leaves its argument arrays as launched.  For the kernel's program (read at words and at the
  extended reals) this is the run of its host stretches and pallas_calls, whose last stage holds every
  argument as launched; for the reference it is its run with the result dropped.
-/
import proofs.«419784_j30691836297408_1_alg».proof.Defs
import proofs.«419784_j30691836297408_1_alg».proof.Proof.K.Run
import proofs.«419784_j30691836297408_1_alg».proof.Proof.KI.Run
import proofs.«419784_j30691836297408_1_alg».proof.Proof.Gen.ReferenceIdeal.Run
import proofs.«419784_j30691836297408_1_alg».proof.Proof.Gen.Pre_finite_inputs

noncomputable section

namespace Cert.Proof.Frames

open Idealize.ShloMosaic Idealize.ShloMosaic.TcCoe Idealize.SL.Sem

theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W6_main_arg0 m ρ c),
      (h c _ (Cert.Kernel.Fr.mem_uc Cert.Kernel.main_arg1 (by decide))).trans (Cert.Kernel.Fr.W6_main_arg1 m ρ c),
      (h c _ (Cert.Kernel.Fr.mem_uc Cert.Kernel.main_arg2 (by decide))).trans (Cert.Kernel.Fr.W6_main_arg2 m ρ c),
      (h c _ (Cert.Kernel.Fr.mem_uc Cert.Kernel.main_arg3 (by decide))).trans (Cert.Kernel.Fr.W6_main_arg3 m ρ c),
      (h c _ (Cert.Kernel.Fr.mem_uc Cert.Kernel.main_arg4 (by decide))).trans (Cert.Kernel.Fr.W6_main_arg4 m ρ c),
      (h c _ (Cert.Kernel.Fr.mem_uc Cert.Kernel.main_arg5 (by decide))).trans (Cert.Kernel.Fr.W6_main_arg5 m ρ c),
      (h c _ (Cert.Kernel.Fr.mem_uc Cert.Kernel.main_arg6 (by decide))).trans (Cert.Kernel.Fr.W6_main_arg6 m ρ c)⟩)
    (Cert.Kernel.Fr.run (F := Bits) m ρ)

theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W6_main_arg0 m ρ c),
      (h c _ (Cert.KernelIdeal.Fr.mem_uc Cert.KernelIdeal.main_arg1 (by decide))).trans (Cert.KernelIdeal.Fr.W6_main_arg1 m ρ c),
      (h c _ (Cert.KernelIdeal.Fr.mem_uc Cert.KernelIdeal.main_arg2 (by decide))).trans (Cert.KernelIdeal.Fr.W6_main_arg2 m ρ c),
      (h c _ (Cert.KernelIdeal.Fr.mem_uc Cert.KernelIdeal.main_arg3 (by decide))).trans (Cert.KernelIdeal.Fr.W6_main_arg3 m ρ c),
      (h c _ (Cert.KernelIdeal.Fr.mem_uc Cert.KernelIdeal.main_arg4 (by decide))).trans (Cert.KernelIdeal.Fr.W6_main_arg4 m ρ c),
      (h c _ (Cert.KernelIdeal.Fr.mem_uc Cert.KernelIdeal.main_arg5 (by decide))).trans (Cert.KernelIdeal.Fr.W6_main_arg5 m ρ c),
      (h c _ (Cert.KernelIdeal.Fr.mem_uc Cert.KernelIdeal.main_arg6 (by decide))).trans (Cert.KernelIdeal.Fr.W6_main_arg6 m ρ c)⟩)
    (Cert.KernelIdeal.Fr.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.Spec.lean ====
/-
  The functions both programs compute, index by index over the extended reals.

  `MM x w` is the product of a 100000 × 128 matrix with a 128 × 128 one; `Relu` the entrywise maximum with
  the zero word; `Pool b a` the per-graph sums of the rows of `a` (row `r` goes to graph `b r`, read as a
  signed word; a row whose graph number is outside 0 … 255 goes nowhere); `Out` divides each graph's sum by the
  larger of its count and one, contracts with the 128 × 1 output weights, adds the bias and applies the
  logistic function.  The `…2` forms take the graph numbers, the counts and the bias as the columns
  100000 × 1, 256 × 1 and 1 × 1 the pooling kernel is handed; they are the same functions.
-/
import Idealize.ShloMosaic.PureOps.Ideal
import Idealize.ShloMosaic.Lib.ValueIdx

noncomputable section

namespace Cert.Spec

open Idealize.ShloMosaic Idealize.ShloMosaic.ValueIdx

abbrev SNx : Shape := ⟨2, ![100000, 128]⟩
abbrev SWx : Shape := ⟨2, ![128, 128]⟩
abbrev SB : Shape := ⟨1, ![100000]⟩
abbrev SB2 : Shape := ⟨2, ![100000, 1]⟩
abbrev SG : Shape := ⟨2, ![256, 128]⟩
abbrev SC : Shape := ⟨1, ![256]⟩
abbrev SO : Shape := ⟨2, ![256, 1]⟩
abbrev SWo : Shape := ⟨2, ![128, 1]⟩
abbrev Sb : Shape := ⟨1, ![1]⟩
abbrev Sb2 : Shape := ⟨2, ![1, 1]⟩

/-- The word of the float 0.0 and of the float 1.0, read at the extended reals. -/
abbrev zeroE : EReal := Ideal.ofBits .f32 0x00000000#32
abbrev oneE : EReal := Ideal.ofBits .f32 0x3F800000#32

/-- The matrix product `x · w`. -/
def MM (x : SNx.Idx → EReal) (w : SWx.Idx → EReal) : SNx.Idx → EReal :=
  fun i => ∑ k : Fin 128, x (ix2 (i 0) k) * w (ix2 k (i 1))

/-- The entrywise maximum with zero. -/
def Relu (x : SNx.Idx → EReal) : SNx.Idx → EReal := fun i => max (x i) zeroE

/-- Graph `g`'s sum, feature `d`: the sum over the rows `r` whose graph number is `g` of `a r d`. -/
def Pool (b : SB.Idx → BitVec 32) (a : SNx.Idx → EReal) : SG.Idx → EReal :=
  fun j => ∑ r : Fin 100000, if (b (ix1 r)).toInt = ((j 0).val : Int) then a (ix2 r (j 1)) else 0

def Pool2 (b : SB2.Idx → BitVec 32) (a : SNx.Idx → EReal) : SG.Idx → EReal :=
  fun j => ∑ r : Fin 100000, if (b (ix2 r 0)).toInt = ((j 0).val : Int) then a (ix2 r (j 1)) else 0

/-- The mean (the sum over the larger of count and one), the output layer and the logistic function. -/
def Out (P : SG.Idx → EReal) (cnt : SC.Idx → EReal) (wo : SWo.Idx → EReal) (bo : Sb.Idx → EReal) : SO.Idx → EReal :=
  fun g => Ideal.logistic ((∑ d : Fin 128, Ideal.div (P (ix2 (g 0) d)) (max (cnt (ix1 (g 0))) oneE) * wo (ix2 d 0)) + bo (ix1 0))

def Out2 (P : SG.Idx → EReal) (cnt : SO.Idx → EReal) (wo : SWo.Idx → EReal) (bo : Sb2.Idx → EReal) : SO.Idx → EReal :=
  fun g => Ideal.logistic ((∑ d : Fin 128, Ideal.div (P (ix2 (g 0) d)) (max (cnt (ix2 (g 0) 0)) oneE) * wo (ix2 d 0)) + bo (ix2 0 0))

theorem Pool2_eq (b2 : SB2.Idx → BitVec 32) (b : SB.Idx → BitVec 32) (a : SNx.Idx → EReal)
    (hb : ∀ r : Fin 100000, b2 (ix2 r 0) = b (ix1 r)) : Pool2 b2 a = Pool b a := by
  funext j; unfold Pool2 Pool
  exact Finset.sum_congr rfl fun r _ => by rw [hb r]

theorem Out2_eq (P : SG.Idx → EReal) (cnt2 : SO.Idx → EReal) (cnt : SC.Idx → EReal) (wo : SWo.Idx → EReal)
    (bo2 : Sb2.Idx → EReal) (bo : Sb.Idx → EReal) (hc : ∀ g : Fin 256, cnt2 (ix2 g 0) = cnt (ix1 g))
    (hb : bo2 (ix2 0 0) = bo (ix1 0)) : Out2 P cnt2 wo bo2 = Out P cnt wo bo := by
  funext g; unfold Out2 Out
  rw [show cnt2 (ix2 (g 0) 0) = cnt (ix1 (g 0)) from hc (g 0), hb]

end Cert.Spec

end
-- ==== Proof.KI.Pay2.lean ====
/-
  The pooling kernel's three payloads at an entry, over the extended reals.
  The reset writes the zero word everywhere.  The update adds to entry (g, d) of the accumulator the sum, over
  the 5000 rows y of the block whose graph number is g, of entry (y, d) of the block: the one-hot matrix has a
  one at (y, g) exactly when row y's graph number, read as a signed word, is g, and 1 · x = x, 0 · x = 0.
  The output divides row g of the accumulator by the larger of graph g's count and one, contracts with the
  128 × 1 weights, adds the bias and applies the logistic function.
-/
import proofs.«419784_j30691836297408_1_alg».proof.Proof.Gen.KernelIdeal.Skeleton
import proofs.«419784_j30691836297408_1_alg».proof.Proof.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen

/-! ## The reset -/

/-- Every entry of the reset's payload is the zero word. -/
theorem pay1_apply (g : Fin 256) (d : Fin 128) : k2_pay1 (F := Ideal) (ix2 g d) = Cert.Spec.zeroE := by
  unfold k2_pay1
  simp only [shapeCast_self]
  rfl

/-! ## The product of the one-hot matrix's transpose with the block: both operands contracted on their rows -/

/-- The left operand is read at the contracted row -/
theorem lhs_pool_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
/-- and at the column the result's row names; -/
theorem lhs_pool_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
/-- the right operand at the contracted row -/
theorem rhs_pool_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
/-- and the result's column. -/
theorem rhs_pool_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

/-- Entry (g, d) of the product accumulated into the zero block: the sum over the rows y of a (y, g) · b (y, d). -/
theorem pool_mm_apply {φ₁ φ₂ : FTy} (a : FVec Ideal S5000x256 φ₁) (b : FVec Ideal S5000x128 φ₂) (g : Fin 256) (d : Fin 128) :
    matmul dot_S5000x256_S5000x128_S256x128_0_0_1_1_n_n none a b (constant (F := Ideal) S256x128 .f32 0x00000000#32) (ix2 g d)
      = ∑ y : Fin 5000, a (ix2 y g) * b (ix2 y d) := by
  simp only [matmul]
  rw [Ideal.matmul_constant_zero_apply, ← Equiv.sum_comp (ValueIdx.contrEquiv1 dot_S5000x256_S5000x128_S256x128_0_0_1_1_n_n 5000 rfl rfl).symm]
  refine Finset.sum_congr rfl fun k _ => ?_
  have hk := ValueIdx.contrEquiv1_symm_val dot_S5000x256_S5000x128_S256x128_0_0_1_1_n_n 5000 rfl rfl k
  have el : dot_S5000x256_S5000x128_S256x128_0_0_1_1_n_n.lhsIdx (ix2 g d) ((ValueIdx.contrEquiv1 dot_S5000x256_S5000x128_S256x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x256_S5000x128_S256x128_0_0_1_1_n_n.rhsIdx (ix2 g d) ((ValueIdx.contrEquiv1 dot_S5000x256_S5000x128_S256x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-! ## The one-hot entry -/

/-- The word of a graph number below 256, read signed, is the number. -/
theorem toInt_ofNat_graph : ∀ g : Fin 256, (BitVec.ofNat 32 g.val).toInt = (g.val : Int) := by decide +kernel

/-- A word equals the word of g exactly when, read signed, it is g. -/
theorem eq_ofNat_graph_iff (w : BitVec 32) (g : Fin 256) : w = BitVec.ofNat 32 g.val ↔ w.toInt = (g.val : Int) := by
  rw [← toInt_ofNat_graph g]; exact BitVec.toInt_inj.symm

/-- The comparison's bit, widened and converted: one when the word, read signed, is g, zero otherwise. -/
theorem onehot_word (w : BitVec 32) (g : Fin 256) :
    (FloatOps.sitofp (F := Ideal) .f32 ((IntOp.cmpi .eq w (BitVec.ofNat 32 g.val)).setWidth 32) : EReal)
      = if w.toInt = (g.val : Int) then 1 else 0 := by
  show ((((IntOp.cmpi .eq w (BitVec.ofNat 32 g.val)).setWidth 32).toInt : ℝ) : EReal) = _
  by_cases h : w = BitVec.ofNat 32 g.val
  · have hb : IntOp.cmpi .eq w (BitVec.ofNat 32 g.val) = 1#1 := by simp [IntOp.cmpi, h]
    rw [hb, if_pos ((eq_ofNat_graph_iff w g).mp h)]
    have : ((1#1 : BitVec 1).setWidth 32).toInt = 1 := by decide
    rw [this]; norm_num
  · have hb : IntOp.cmpi .eq w (BitVec.ofNat 32 g.val) = 0#1 := by
      unfold IntOp.cmpi; rw [beq_eq_false_iff_ne.mpr h]; rfl
    rw [hb, if_neg (fun e => h ((eq_ofNat_graph_iff w g).mpr e))]
    have : ((0#1 : BitVec 1).setWidth 32).toInt = 0 := by decide
    rw [this]; norm_num

/-- A column broadcast along the rows' 256 lanes reads the column's row. -/
theorem bcast_col_apply {α : Type} (x : S5000x1.Idx → α) (y : Fin 5000) (g : Fin 256) :
    broadcastTo S5000x256 x broadcasts_S5000x1_S5000x256 (ix2 y g) = x (ix2 y 0) :=
  broadcastTo_apply x _ (ix2 y g) (ix2 y 0) (fun a => by
    match a with
    | ⟨0, _⟩ => rfl
    | ⟨1, _⟩ => rfl)

/-- A row broadcast down 5000 rows reads the row's lane. -/
theorem bcast_row_apply {α : Type} (x : S1x256.Idx → α) (y : Fin 5000) (g : Fin 256) :
    broadcastTo S5000x256 x broadcasts_S1x256_S5000x256 (ix2 y g) = x (ix2 0 g) :=
  broadcastTo_apply x _ (ix2 y g) (ix2 0 g) (fun a => by
    match a with
    | ⟨0, _⟩ => rfl
    | ⟨1, _⟩ => rfl)

/-- Entry (g, d) of the update's payload: the accumulator's entry plus the sum over the block's rows whose graph
    number is g of the row's entry d. -/
theorem pay2_apply (v3 : Vec Ideal S5000x1 .i32) (v12 : Vec Ideal S5000x128 .f32) (v16 : Vec Ideal S256x128 .f32)
    (g : Fin 256) (d : Fin 128) :
    k2_pay2 (F := Ideal) v3 v12 v16 (ix2 g d)
      = v16 (ix2 g d) + ∑ y : Fin 5000, (if (v3 (ix2 y 0)).toInt = (g.val : Int) then v12 (ix2 y d) else 0) := by
  unfold k2_pay2
  simp only [shapeCast_self]
  refine congrArg (v16 (ix2 g d) + ·) ?_
  refine (pool_mm_apply _ _ g d).trans (Finset.sum_congr rfl fun y _ => ?_)
  have e6 : broadcastTo S5000x256 v3 broadcasts_S5000x1_S5000x256 (ix2 y g) = v3 (ix2 y 0) := bcast_col_apply v3 y g
  have e7 : broadcastTo S5000x256 (iota .tc S1x256 32 [1] iota_S1x256_d1_w32) broadcasts_S1x256_S5000x256 (ix2 y g) = BitVec.ofNat 32 g.val :=
    (bcast_row_apply _ y g).trans (iota_single_apply .tc S1x256 32 1 iota_S1x256_d1_w32 (ix2 0 g))
  show FloatOps.sitofp (F := Ideal) .f32 ((IntOp.cmpi .eq (broadcastTo S5000x256 v3 broadcasts_S5000x1_S5000x256 (ix2 y g)) (broadcastTo S5000x256 (iota .tc S1x256 32 [1] iota_S1x256_d1_w32) broadcasts_S1x256_S5000x256 (ix2 y g))).setWidth 32) * v12 (ix2 y d) = _
  rw [e6, e7, onehot_word]
  split_ifs
  · exact one_mul _
  · exact zero_mul _

/-! ## The output layer: the mean's row times the 128 × 1 weights -/

/-- The left operand is read at the result's row -/
theorem lhs_out_0 (i : S256x1.Idx) (q : dot_S256x128_S128x1_S256x1_1_0_0_1_n_n.contr.Idx) :
    (dot_S256x128_S128x1_S256x1_1_0_0_1_n_n.lhsIdx i q 0).val = (i 0).val := by
  unfold DotDims.lhsIdx
  rw [dif_neg (show ¬(0 : Fin S256x128.rank) ∈ dot_S256x128_S128x1_S256x1_1_0_0_1_n_n.lhsBatch by decide), dif_pos (show (0 : Fin S256x128.rank) ∈ dot_S256x128_S128x1_S256x1_1_0_0_1_n_n.lhsNonContracting by decide)]
  rfl
/-- and the contracted column; -/
theorem lhs_out_1 (i : S256x1.Idx) (q : dot_S256x128_S128x1_S256x1_1_0_0_1_n_n.contr.Idx) :
    (dot_S256x128_S128x1_S256x1_1_0_0_1_n_n.lhsIdx i q 1).val = (q ⟨0, by decide⟩).val :=
  dot_S256x128_S128x1_S256x1_1_0_0_1_n_n.lhsIdx_val_of_single rfl i q
/-- the right operand at the contracted row -/
theorem rhs_out_0 (i : S256x1.Idx) (q : dot_S256x128_S128x1_S256x1_1_0_0_1_n_n.contr.Idx) :
    (dot_S256x128_S128x1_S256x1_1_0_0_1_n_n.rhsIdx i q 0).val = (q ⟨0, by decide⟩).val :=
  dot_S256x128_S128x1_S256x1_1_0_0_1_n_n.rhsIdx_val_of_single rfl i q
/-- and the result's column. -/
theorem rhs_out_1 (i : S256x1.Idx) (q : dot_S256x128_S128x1_S256x1_1_0_0_1_n_n.contr.Idx) :
    (dot_S256x128_S128x1_S256x1_1_0_0_1_n_n.rhsIdx i q 1).val = (i 1).val := by
  unfold DotDims.rhsIdx
  rw [dif_neg (show ¬(1 : Fin S128x1.rank) ∈ dot_S256x128_S128x1_S256x1_1_0_0_1_n_n.rhsBatch by decide), dif_pos (show (1 : Fin S128x1.rank) ∈ dot_S256x128_S128x1_S256x1_1_0_0_1_n_n.rhsNonContracting by decide)]
  rfl

/-- Entry (g, o) of the product accumulated into the zero column: the sum over d of a (g, d) · b (d, o). -/
theorem out_mm_apply {φ₁ φ₂ : FTy} (a : FVec Ideal S256x128 φ₁) (b : FVec Ideal S128x1 φ₂) (g : Fin 256) (o : Fin 1) :
    matmul dot_S256x128_S128x1_S256x1_1_0_0_1_n_n none a b (constant (F := Ideal) S256x1 .f32 0x00000000#32) (ix2 g o)
      = ∑ d : Fin 128, a (ix2 g d) * b (ix2 d o) := by
  simp only [matmul]
  rw [Ideal.matmul_constant_zero_apply, ← Equiv.sum_comp (ValueIdx.contrEquiv1 dot_S256x128_S128x1_S256x1_1_0_0_1_n_n 128 rfl rfl).symm]
  refine Finset.sum_congr rfl fun k _ => ?_
  have hk := ValueIdx.contrEquiv1_symm_val dot_S256x128_S128x1_S256x1_1_0_0_1_n_n 128 rfl rfl k
  have el : dot_S256x128_S128x1_S256x1_1_0_0_1_n_n.lhsIdx (ix2 g o) ((ValueIdx.contrEquiv1 dot_S256x128_S128x1_S256x1_1_0_0_1_n_n 128 rfl rfl).symm k) = ix2 g k := funext fun a => Fin.ext (by
    match a with
    | ⟨0, _⟩ => exact lhs_out_0 _ _
    | ⟨1, _⟩ => exact (lhs_out_1 _ _).trans hk)
  have er : dot_S256x128_S128x1_S256x1_1_0_0_1_n_n.rhsIdx (ix2 g o) ((ValueIdx.contrEquiv1 dot_S256x128_S128x1_S256x1_1_0_0_1_n_n 128 rfl rfl).symm k) = ix2 k o := funext fun a => Fin.ext (by
    match a with
    | ⟨0, _⟩ => exact (rhs_out_0 _ _).trans hk
    | ⟨1, _⟩ => exact rhs_out_1 _ _)
  rw [el, er]

/-- The counts' column broadcast along 128 lanes reads the column's row. -/
theorem bcast_cnt_apply {α : Type} (x : S256x1.Idx → α) (g : Fin 256) (d : Fin 128) :
    broadcastTo S256x128 x broadcasts_S256x1_S256x128 (ix2 g d) = x (ix2 g 0) :=
  broadcastTo_apply x _ (ix2 g d) (ix2 g 0) (fun a => by
    match a with
    | ⟨0, _⟩ => rfl
    | ⟨1, _⟩ => rfl)

/-- The bias broadcast down the 256 rows reads its one entry. -/
theorem bcast_bias_apply {α : Type} (x : S1x1.Idx → α) (g : Fin 256) :
    broadcastTo S256x1 x broadcasts_S1x1_S256x1 (ix2 g 0) = x (ix2 0 0) :=
  broadcastTo_apply x _ (ix2 g 0) (ix2 0 0) (fun a => by
    match a with
    | ⟨0, _⟩ => rfl
    | ⟨1, _⟩ => rfl)

/-- Entry (g, 0) of the output's payload: the logistic function of the bias plus the sum over d of the quotient of
    entry (g, d) of the accumulator by the larger of graph g's count and one, times weight d. -/
theorem pay3_apply (v24 : Vec Ideal S256x1 .f32) (v26 : Vec Ideal S256x128 .f32) (v32 : Vec Ideal S128x1 .f32)
    (v35 : Vec Ideal S1x1 .f32) (g : Fin 256) :
    k2_pay3 (F := Ideal) v24 v26 v32 v35 (ix2 g 0)
      = Ideal.logistic ((∑ d : Fin 128, Ideal.div (v26 (ix2 g d)) (max (v24 (ix2 g 0)) Cert.Spec.oneE) * v32 (ix2 d 0)) + v35 (ix2 0 0)) := by
  unfold k2_pay3
  simp only [shapeCast_self]
  show Ideal.logistic (matmul (F := Ideal) dot_S256x128_S128x1_S256x1_1_0_0_1_n_n none _ _ _ (ix2 g 0) + broadcastTo S256x1 v35 broadcasts_S1x1_S256x1 (ix2 g 0)) = _
  rw [out_mm_apply, bcast_bias_apply]
  refine congrArg Ideal.logistic (congrArg (· + v35 (ix2 0 0)) (Finset.sum_congr rfl fun d _ => ?_))
  show Ideal.div (v26 (ix2 g d)) (broadcastTo S256x128 (maximumf v24 (broadcast S256x1 (Ideal.ofBits .f32 0x3F800000#32))) broadcasts_S256x1_S256x128 (ix2 g d)) * v32 (ix2 d 0) = _
  rw [bcast_cnt_apply]
  rfl

end Cert.KernelIdeal.Val

end
-- ==== Proof.KI.Val2Sum.lean ====
/-
  The pooled sums, block by block.  The 100000 rows are 20 blocks of 5000: row 5000 t + y is row y of block t.
  Block t's part of graph g's sum at feature d is the sum over the block's rows y whose graph number is g of
  entry (5000 t + y, d); the sum of the parts of blocks 0 … n is what the accumulator holds after point n, and
  the sum of all twenty parts is the pooled sum over all the rows (addition on the extended reals is
  commutative and associative, so the regrouping needs no finiteness).
-/
import proofs.«419784_j30691836297408_1_alg».proof.Proof.Spec
import Mathlib.Algebra.BigOperators.Fin
import Mathlib.Data.Fintype.BigOperators

noncomputable section

namespace Cert.Spec

open Idealize.ShloMosaic Idealize.ShloMosaic.ValueIdx

/-- Row y of block t is row 5000 t + y of the array. -/
def rowOf (t : Fin 20) (y : Fin 5000) : Fin 100000 := ⟨t.val * 5000 + y.val, by omega⟩

theorem rowOf_val (t : Fin 20) (y : Fin 5000) : (rowOf t y).val = t.val * 5000 + y.val := rfl

/-- The rows as 20 blocks of 5000. -/
def rowEquiv : Fin 20 × Fin 5000 ≃ Fin 100000 where
  toFun p := rowOf p.1 p.2
  invFun r := (⟨r.val / 5000, by have := r.isLt; omega⟩, ⟨r.val % 5000, by omega⟩)
  left_inv p := by
    obtain ⟨t, y⟩ := p
    refine Prod.ext (Fin.ext ?_) (Fin.ext ?_)
    · show (t.val * 5000 + y.val) / 5000 = t.val; omega
    · show (t.val * 5000 + y.val) % 5000 = y.val; omega
  right_inv r := Fin.ext (by show r.val / 5000 * 5000 + r.val % 5000 = r.val; omega)

/-- A sum over the rows is the sum over the blocks of the sums over each block's rows. -/
theorem sum_rows (f : Fin 100000 → EReal) : ∑ r : Fin 100000, f r = ∑ t : Fin 20, ∑ y : Fin 5000, f (rowOf t y) := by
  rw [← Equiv.sum_comp rowEquiv f, Fintype.sum_prod_type]
  rfl

/-- Block t's part of graph g's sum at feature d. -/
def BlockSum (b : SB2.Idx → BitVec 32) (a : SNx.Idx → EReal) (t : Fin 20) (g : Fin 256) (d : Fin 128) : EReal :=
  ∑ y : Fin 5000, if (b (ix2 (rowOf t y) 0)).toInt = (g.val : Int) then a (ix2 (rowOf t y) d) else 0

/-- The parts of blocks 0 … n added. -/
def PartPool (b : SB2.Idx → BitVec 32) (a : SNx.Idx → EReal) (n : Nat) (hn : n < 20) : SG.Idx → EReal :=
  fun j => ∑ t : Fin (n + 1), BlockSum b a ⟨t.val, by have := t.isLt; omega⟩ (j 0) (j 1)

theorem PartPool_zero (b : SB2.Idx → BitVec 32) (a : SNx.Idx → EReal) (j : SG.Idx) :
    PartPool b a 0 (by decide) j = 0 + BlockSum b a 0 (j 0) (j 1) := by
  unfold PartPool
  rw [Fin.sum_univ_castSucc]
  rfl

theorem PartPool_succ (b : SB2.Idx → BitVec 32) (a : SNx.Idx → EReal) (n : Nat) (hn : n + 1 < 20) (j : SG.Idx) :
    PartPool b a (n + 1) hn j = PartPool b a n (by omega) j + BlockSum b a ⟨n + 1, hn⟩ (j 0) (j 1) := by
  unfold PartPool
  rw [Fin.sum_univ_castSucc]
  rfl

/-- All twenty parts added are the pooled sums. -/
theorem PartPool_last (b : SB2.Idx → BitVec 32) (a : SNx.Idx → EReal) : PartPool b a 19 (by decide) = Pool2 b a := by
  funext j
  unfold PartPool Pool2
  rw [sum_rows]
  rfl

end Cert.Spec

end
-- ==== Proof.KI.Val2Pieces.lean ====
/-
  What each case of the pooling kernel's body leaves in the accumulator and in the output block, as the
  payloads of its stores: the first point leaves the update of the zero block by the first block of rows; a
  later point the update of what the point before left; the last point moreover leaves, in the output block,
  the output layer computed from the accumulator it has just updated.
-/
import proofs.«419784_j30691836297408_1_alg».proof.Proof.KI.Reg2D
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

variable {F : FTy → Type} [FloatOps F]

theorem hz2 : (![0, 0] : Fin 2 → Nat) = fun _ => 0 := funext fun a => by fin_cases a <;> rfl

/-- The first point leaves in the accumulator the update of the zero block by the first block. -/
theorem soutA_eq (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : Fr.cond2_0 i) (hc1 : ¬Fr.cond2_1 i) (x0 : Vec F S5000x128 .f32) (x1 : Vec F S5000x1 .i32) :
    Fr.sout2_A c i arg1 harg1 arg2 harg2 arg3 harg3 arg4 harg4 arg5 harg5 arg6 harg6 arg7 harg7 hc0 hc1 x0 x1 = k2_pay2 x1 x0 (k2_pay1 (F := F)) := by
  unfold Fr.sout2_A
  rw [View.read_writes_eq_canon _ _ _ (Fr.scover2_A c i arg1 harg1 arg2 harg2 arg3 harg3 arg4 harg4 arg5 harg5 arg6 harg6 arg7 harg7 hc0 hc1 x0 x1)]
  unfold Fr.kernelRun2_A
  dsimp only
  sl_unfold_words
  rw [View.canon_cons_unit_zero (S := S256x128) hz2, View.readCov_unit_zero (S := S256x128) _ hz2]
  simp only [View.readAt_eq_ld, harg1.read_unread, harg2.read_unread, View.ld_unit_zero (S := S5000x128) hz2, View.ld_unit_zero (S := S5000x1) hz2]

/-- A middle point leaves in the accumulator the update of what it held by the point's block. -/
theorem soutB_eq (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬Fr.cond2_0 i) (hc1 : ¬Fr.cond2_1 i) (x0 : Vec F S5000x128 .f32) (x1 : Vec F S5000x1 .i32) (xs : Vec F S256x128 .f32) :
    Fr.sout2_B c i arg1 harg1 arg2 harg2 arg3 harg3 arg4 harg4 arg5 harg5 arg6 harg6 arg7 harg7 hc0 hc1 x0 x1 xs = k2_pay2 x1 x0 xs := by
  unfold Fr.sout2_B
  rw [View.read_writes_eq_canon _ _ _ (Fr.scover2_B c i arg1 harg1 arg2 harg2 arg3 harg3 arg4 harg4 arg5 harg5 arg6 harg6 arg7 harg7 hc0 hc1 x0 x1 xs)]
  unfold Fr.kernelRun2_B
  dsimp only
  sl_unfold_words
  rw [View.canon_unit_zero (S := S256x128) hz2]
  simp only [View.readAt_eq_ld, harg1.read_unread, harg2.read_unread, harg7.read_unread, View.ld_unit_zero (S := S5000x128) hz2, View.ld_unit_zero (S := S5000x1) hz2, View.ld_unit_zero (S := S256x128) hz2]

/-- So does the last point; -/
theorem soutC_eq (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬Fr.cond2_0 i) (hc1 : Fr.cond2_1 i) (x0 : Vec F S5000x128 .f32) (x1 : Vec F S5000x1 .i32) (x2 : Vec F S256x1 .f32) (x3 : Vec F S128x1 .f32) (x4 : Vec F S1x1 .f32)
    (xs : Vec F S256x128 .f32) :
    Fr.sout2_C c i arg1 harg1 arg2 harg2 arg3 harg3 arg4 harg4 arg5 harg5 arg6 harg6 arg7 harg7 hc0 hc1 x0 x1 x2 x3 x4 xs = k2_pay2 x1 x0 xs := by
  unfold Fr.sout2_C
  rw [View.read_writes_eq_canon _ _ _ (Fr.scover2_C c i arg1 harg1 arg2 harg2 arg3 harg3 arg4 harg4 arg5 harg5 arg6 harg6 arg7 harg7 hc0 hc1 x0 x1 x2 x3 x4 xs)]
  unfold Fr.kernelRun2_C
  dsimp only
  sl_unfold_words
  rw [View.canon_unit_zero (S := S256x128) hz2]
  simp only [View.readAt_eq_ld, harg1.read_unread, harg2.read_unread, harg7.read_unread, View.ld_unit_zero (S := S5000x128) hz2, View.ld_unit_zero (S := S5000x1) hz2, View.ld_unit_zero (S := S256x128) hz2]

/-- and it leaves in the output block the output layer of the counts, the accumulator just updated, the
    weights and the bias. -/
theorem outC_eq (c : Dev nD) (i : grid2.Coords) (arg1 : Memref sig .tc .vmem S5000x128 .f32) (harg1 : arg1.IsWhole) (arg2 : Memref sig .tc .vmem S5000x1 .i32) (harg2 : arg2.IsWhole)
    (arg3 : Memref sig .tc .vmem S256x1 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S256x128 .f32) (harg7 : arg7.IsWhole)
    (hc0 : ¬Fr.cond2_0 i) (hc1 : Fr.cond2_1 i) (x0 : Vec F S5000x128 .f32) (x1 : Vec F S5000x1 .i32) (x2 : Vec F S256x1 .f32) (x3 : Vec F S128x1 .f32) (x4 : Vec F S1x1 .f32)
    (xs : Vec F S256x128 .f32) :
    Fr.out2_C c i arg1 harg1 arg2 harg2 arg3 harg3 arg4 harg4 arg5 harg5 arg6 harg6 arg7 harg7 hc0 hc1 x0 x1 x2 x3 x4 xs = k2_pay3 x2 (k2_pay2 x1 x0 xs) x3 x4 := by
  unfold Fr.out2_C
  rw [View.read_writes_eq_canon _ _ _ (Fr.cover2_C c i arg1 harg1 arg2 harg2 arg3 harg3 arg4 harg4 arg5 harg5 arg6 harg6 arg7 harg7 hc0 hc1 x0 x1 x2 x3 x4 xs)]
  unfold Fr.kernelRun2_C
  dsimp only
  sl_unfold_words
  rw [View.canon_unit_zero (S := S256x1) hz2, View.readCov_unit_zero (S := S256x128) _ hz2]
  simp only [View.readAt_eq_ld, harg1.read_unread, harg2.read_unread, harg3.read_unread, harg4.read_unread, harg5.read_unread, harg7.read_unread, View.ld_unit_zero (S := S5000x128) hz2, View.ld_unit_zero (S := S5000x1) hz2, View.ld_unit_zero (S := S256x128) hz2, View.ld_unit_zero (S := S256x1) hz2, View.ld_unit_zero (S := S128x1) hz2, View.ld_unit_zero (S := S1x1) hz2]

end Cert.KernelIdeal.Val

end
-- ==== Proof.KI.Val2.lean ====
/-
  What the pooling pallas_call leaves in its output array, at the extended reals.  Point t of the 20-point grid
  takes rows 5000 t … 5000 t + 4999 of the second aggregation and of the graph numbers, and adds to entry (g, d)
  of the accumulator the sum of the entries (r, d) over the block's rows r whose graph number is g; after point n
  the accumulator holds the sums over the rows of blocks 0 … n, after the last point the pooled sums over all
  100000 rows.  The last point then writes the output column: each graph's pooled row divided by the larger of
  its count and one, contracted with the output weights, plus the bias, through the logistic function; that one
  block is the whole output array.
-/
import proofs.«419784_j30691836297408_1_alg».proof.Proof.KI.Reg2D
import proofs.«419784_j30691836297408_1_alg».proof.Proof.KI.Pay2
import proofs.«419784_j30691836297408_1_alg».proof.Proof.KI.Val2Sum
import proofs.«419784_j30691836297408_1_alg».proof.Proof.KI.Val2Pieces
import proofs.«419784_j30691836297408_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The printed index maps over the grid: at point t the windows of rows and of graph numbers are at block
    (t, 0); the counts, the weights, the bias and the output are whole arrays, at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem N2 : cfg2.N = 20 := N_2

variable (V : (c : Dev nD) → (b : Ref sig .tc) → Buf (Elt Ideal) ((c : Thread nD τ).loc b))

/-- The five arrays the kernel reads, at their literal shapes. -/
abbrev rowsArr (c : Dev nD) : Cert.Spec.SNx.Idx → EReal := V c main_v25
abbrev gnumArr (c : Dev nD) : Cert.Spec.SB2.Idx → BitVec 32 := V c main_v30
abbrev cntArr (c : Dev nD) : Cert.Spec.SO.Idx → EReal := V c main_v31
abbrev wgtArr (c : Dev nD) : Cert.Spec.SWo.Idx → EReal := V c main_arg5
abbrev biasArr (c : Dev nD) : Cert.Spec.Sb2.Idx → EReal := V c main_v32

/-- Their blocks at point t. -/
abbrev rowsBlk (c : Dev nD) (t : Fin cfg2.N) : Vec Ideal S5000x128 .f32 := Fr.iblk2 V c 0 t
abbrev gnumBlk (c : Dev nD) (t : Fin cfg2.N) : Vec Ideal S5000x1 .i32 := Fr.iblk2 V c 1 t
abbrev cntBlk (c : Dev nD) (t : Fin cfg2.N) : Vec Ideal S256x1 .f32 := Fr.iblk2 V c 2 t
abbrev wgtBlk (c : Dev nD) (t : Fin cfg2.N) : Vec Ideal S128x1 .f32 := Fr.iblk2 V c 3 t
abbrev biasBlk (c : Dev nD) (t : Fin cfg2.N) : Vec Ideal S1x1 .f32 := Fr.iblk2 V c 4 t

/-- Row y of the block of rows at point t is row 5000 t + y of the array; -/
theorem rowsBlk_apply (c : Dev nD) (t : Fin cfg2.N) (t' : Fin 20) (ht : t'.val = t.val) (y : Fin 5000) (d : Fin 128) :
    rowsBlk V c t (ix2 y d) = rowsArr V c (ix2 (Cert.Spec.rowOf t' y) d) := by
  obtain ⟨e00, e01, -⟩ := idx_facts2 t
  show V c main_v25 (((cfg2.win 0).blk t).view.emb (ix2 y d)) = V c main_v25 (ix2 (Cert.Spec.rowOf t' y) d)
  refine congrArg (V c main_v25) (funext fun a => Fin.ext ?_)
  match a with
  | ⟨0, _⟩ => show win2_0.index t (0 : Fin 2) * 5000 + 1 * y.val = t'.val * 5000 + y.val; omega
  | ⟨1, _⟩ => show win2_0.index t (1 : Fin 2) * 128 + 1 * d.val = d.val; omega

/-- so is row y of the block of graph numbers. -/
theorem gnumBlk_apply (c : Dev nD) (t : Fin cfg2.N) (t' : Fin 20) (ht : t'.val = t.val) (y : Fin 5000) :
    gnumBlk V c t (ix2 y 0) = gnumArr V c (ix2 (Cert.Spec.rowOf t' y) 0) := by
  obtain ⟨-, -, e10, e11, -⟩ := idx_facts2 t
  show V c main_v30 (((cfg2.win 1).blk t).view.emb (ix2 y 0)) = V c main_v30 (ix2 (Cert.Spec.rowOf t' y) 0)
  refine congrArg (V c main_v30) (funext fun a => Fin.ext ?_)
  match a with
  | ⟨0, _⟩ => show win2_1.index t (0 : Fin 2) * 5000 + 1 * y.val = t'.val * 5000 + y.val; omega
  | ⟨1, _⟩ => show win2_1.index t (1 : Fin 2) * 1 + 1 * 0 = 0; omega

/-- The counts' block is the counts' array, -/
theorem cntBlk_eq (c : Dev nD) (t : Fin cfg2.N) : cntBlk V c t = cntArr V c := by
  obtain ⟨-, -, -, -, e20, e21, -⟩ := idx_facts2 t
  funext j
  show V c main_v31 (((cfg2.win 2).blk t).view.emb j) = V c main_v31 j
  refine congrArg (V c main_v31) (funext fun a => Fin.ext ?_)
  match a with
  | ⟨0, _⟩ => show win2_2.index t (0 : Fin 2) * 256 + 1 * (j 0).val = (j 0).val; omega
  | ⟨1, _⟩ => show win2_2.index t (1 : Fin 2) * 1 + 1 * (j 1).val = (j 1).val; omega

/-- the weights' block the weights' array, -/
theorem wgtBlk_eq (c : Dev nD) (t : Fin cfg2.N) : wgtBlk V c t = wgtArr V c := by
  obtain ⟨-, -, -, -, -, -, e30, e31, -⟩ := idx_facts2 t
  funext j
  show V c main_arg5 (((cfg2.win 3).blk t).view.emb j) = V c main_arg5 j
  refine congrArg (V c main_arg5) (funext fun a => Fin.ext ?_)
  match a with
  | ⟨0, _⟩ => show win2_3.index t (0 : Fin 2) * 128 + 1 * (j 0).val = (j 0).val; omega
  | ⟨1, _⟩ => show win2_3.index t (1 : Fin 2) * 1 + 1 * (j 1).val = (j 1).val; omega

/-- and the bias's block the bias's array. -/
theorem biasBlk_eq (c : Dev nD) (t : Fin cfg2.N) : biasBlk V c t = biasArr V c := by
  obtain ⟨-, -, -, -, -, -, -, -, e40, e41, -⟩ := idx_facts2 t
  funext j
  show V c main_v32 (((cfg2.win 4).blk t).view.emb j) = V c main_v32 j
  refine congrArg (V c main_v32) (funext fun a => Fin.ext ?_)
  match a with
  | ⟨0, _⟩ => show win2_4.index t (0 : Fin 2) * 1 + 1 * (j 0).val = (j 0).val; omega
  | ⟨1, _⟩ => show win2_4.index t (1 : Fin 2) * 1 + 1 * (j 1).val = (j 1).val; omega

/-- The update at point t adds block t's part of the pooled sums. -/
theorem upd_apply (c : Dev nD) (t : Fin cfg2.N) (t' : Fin 20) (ht : t'.val = t.val) (xs : Vec Ideal S256x128 .f32)
    (g : Fin 256) (d : Fin 128) :
    k2_pay2 (F := Ideal) (gnumBlk V c t) (rowsBlk V c t) xs (ix2 g d)
      = xs (ix2 g d) + Cert.Spec.BlockSum (gnumArr V c) (rowsArr V c) t' g d := by
  refine (pay2_apply (gnumBlk V c t) (rowsBlk V c t) xs g d).trans ?_
  unfold Cert.Spec.BlockSum
  refine congrArg (xs (ix2 g d) + ·) (Finset.sum_congr rfl fun y _ => ?_)
  rw [gnumBlk_apply V c t t' ht y, rowsBlk_apply V c t t' ht y d]

/-- THE ACCUMULATOR after point n holds the parts of blocks 0 … n added. -/
theorem scratch_eq (c : Dev nD) : ∀ (n : ℕ) (hn : n < cfg2.N) (j : S256x128.Idx),
    (Fr.outsAt2 V c n hn).2 j = Cert.Spec.PartPool (gnumArr V c) (rowsArr V c) n (lt_of_lt_of_eq hn N2) j
  | 0, hn, j => by
    obtain ⟨g, d, rfl⟩ : ∃ (g : Fin 256) (d : Fin 128), j = ix2 g d := ⟨j 0, j 1, eq_ix2 j⟩
    show Fr.sout2_A c (grid2.coords ⟨0, hn⟩) (Fr.ms2_0 ⟨0, hn⟩) (Fr.hs2_0 ⟨0, hn⟩) (Fr.ms2_1 ⟨0, hn⟩) (Fr.hs2_1 ⟨0, hn⟩) (Fr.ms2_2 ⟨0, hn⟩) (Fr.hs2_2 ⟨0, hn⟩) (Fr.ms2_3 ⟨0, hn⟩) (Fr.hs2_3 ⟨0, hn⟩) (Fr.ms2_4 ⟨0, hn⟩) (Fr.hs2_4 ⟨0, hn⟩) (Fr.ms2_5 ⟨0, hn⟩) (Fr.hs2_5 ⟨0, hn⟩) Fr.scM2_0 (Memref.isWhole_whole _) (Fr.c0_zero hn) (Fr.not_c1_zero hn) (rowsBlk V c ⟨0, hn⟩) (gnumBlk V c ⟨0, hn⟩) (ix2 g d) = _
    refine (congrFun (soutA_eq c (grid2.coords ⟨0, hn⟩) (Fr.ms2_0 ⟨0, hn⟩) (Fr.hs2_0 ⟨0, hn⟩) (Fr.ms2_1 ⟨0, hn⟩) (Fr.hs2_1 ⟨0, hn⟩) (Fr.ms2_2 ⟨0, hn⟩) (Fr.hs2_2 ⟨0, hn⟩) (Fr.ms2_3 ⟨0, hn⟩) (Fr.hs2_3 ⟨0, hn⟩) (Fr.ms2_4 ⟨0, hn⟩) (Fr.hs2_4 ⟨0, hn⟩) (Fr.ms2_5 ⟨0, hn⟩) (Fr.hs2_5 ⟨0, hn⟩) Fr.scM2_0 (Memref.isWhole_whole _) (Fr.c0_zero hn) (Fr.not_c1_zero hn) (rowsBlk V c ⟨0, hn⟩) (gnumBlk V c ⟨0, hn⟩)) (ix2 g d)).trans ?_
    refine (upd_apply V c ⟨0, hn⟩ 0 rfl (k2_pay1 (F := Ideal)) g d).trans ?_
    rw [pay1_apply, show Cert.Spec.zeroE = 0 from Ideal.ofBits_zero_f32, Cert.Spec.PartPool_zero]
  | n + 1, hn, j => by
    obtain ⟨g, d, rfl⟩ : ∃ (g : Fin 256) (d : Fin 128), j = ix2 g d := ⟨j 0, j 1, eq_ix2 j⟩
    have hN : n + 1 < 20 := lt_of_lt_of_eq hn N2
    have h0 : ¬(⟨n + 1, hn⟩ : Fin cfg2.N).val % 20 = 0 := by dsimp only; omega
    rw [Cert.Spec.PartPool_succ _ _ n hN]
    by_cases h1 : (⟨n + 1, hn⟩ : Fin cfg2.N).val % 20 = 19
    · rw [Fr.outsAt2_C V c ⟨n + 1, hn⟩ h0 h1]
      dsimp only
      refine (congrFun (soutC_eq c (grid2.coords ⟨n + 1, hn⟩) (Fr.ms2_0 ⟨n + 1, hn⟩) (Fr.hs2_0 ⟨n + 1, hn⟩) (Fr.ms2_1 ⟨n + 1, hn⟩) (Fr.hs2_1 ⟨n + 1, hn⟩) (Fr.ms2_2 ⟨n + 1, hn⟩) (Fr.hs2_2 ⟨n + 1, hn⟩) (Fr.ms2_3 ⟨n + 1, hn⟩) (Fr.hs2_3 ⟨n + 1, hn⟩) (Fr.ms2_4 ⟨n + 1, hn⟩) (Fr.hs2_4 ⟨n + 1, hn⟩) (Fr.ms2_5 ⟨n + 1, hn⟩) (Fr.hs2_5 ⟨n + 1, hn⟩) Fr.scM2_0 (Memref.isWhole_whole _) (fun h => h0 ((Fr.hcond2_0 ⟨n + 1, hn⟩).mp h)) ((Fr.hcond2_1 ⟨n + 1, hn⟩).mpr h1) (rowsBlk V c ⟨n + 1, hn⟩) (gnumBlk V c ⟨n + 1, hn⟩) (cntBlk V c ⟨n + 1, hn⟩) (wgtBlk V c ⟨n + 1, hn⟩) (biasBlk V c ⟨n + 1, hn⟩) (Fr.outsAt2 V c n (Nat.lt_of_succ_lt hn)).2) (ix2 g d)).trans ?_
      refine (upd_apply V c ⟨n + 1, hn⟩ ⟨n + 1, hN⟩ rfl (Fr.outsAt2 V c n (Nat.lt_of_succ_lt hn)).2 g d).trans ?_
      exact congrArg (· + Cert.Spec.BlockSum (gnumArr V c) (rowsArr V c) ⟨n + 1, hN⟩ g d) (scratch_eq c n (Nat.lt_of_succ_lt hn) (ix2 g d))
    · rw [Fr.outsAt2_B V c ⟨n + 1, hn⟩ h0 h1]
      dsimp only
      refine (congrFun (soutB_eq c (grid2.coords ⟨n + 1, hn⟩) (Fr.ms2_0 ⟨n + 1, hn⟩) (Fr.hs2_0 ⟨n + 1, hn⟩) (Fr.ms2_1 ⟨n + 1, hn⟩) (Fr.hs2_1 ⟨n + 1, hn⟩) (Fr.ms2_2 ⟨n + 1, hn⟩) (Fr.hs2_2 ⟨n + 1, hn⟩) (Fr.ms2_3 ⟨n + 1, hn⟩) (Fr.hs2_3 ⟨n + 1, hn⟩) (Fr.ms2_4 ⟨n + 1, hn⟩) (Fr.hs2_4 ⟨n + 1, hn⟩) (Fr.ms2_5 ⟨n + 1, hn⟩) (Fr.hs2_5 ⟨n + 1, hn⟩) Fr.scM2_0 (Memref.isWhole_whole _) (fun h => h0 ((Fr.hcond2_0 ⟨n + 1, hn⟩).mp h)) (fun h => h1 ((Fr.hcond2_1 ⟨n + 1, hn⟩).mp h)) (rowsBlk V c ⟨n + 1, hn⟩) (gnumBlk V c ⟨n + 1, hn⟩) (Fr.outsAt2 V c n (Nat.lt_of_succ_lt hn)).2) (ix2 g d)).trans ?_
      refine (upd_apply V c ⟨n + 1, hn⟩ ⟨n + 1, hN⟩ rfl (Fr.outsAt2 V c n (Nat.lt_of_succ_lt hn)).2 g d).trans ?_
      exact congrArg (· + Cert.Spec.BlockSum (gnumArr V c) (rowsArr V c) ⟨n + 1, hN⟩ g d) (scratch_eq c n (Nat.lt_of_succ_lt hn) (ix2 g d))

/-- The pooled sums, the counts, the weights and the bias through the output layer. -/
abbrev outCol (c : Dev nD) : Cert.Spec.SO.Idx → EReal :=
  Cert.Spec.Out2 (Cert.Spec.Pool2 (gnumArr V c) (rowsArr V c)) (cntArr V c) (wgtArr V c) (biasArr V c)

/-- THE OUTPUT BLOCK after the last point: the output layer of the pooled sums over all the rows. -/
theorem out_last (c : Dev nD) (hn : 19 < cfg2.N) : (Fr.outsAt2 V c 19 hn).1 = outCol V c := by
  have h0 : ¬(⟨19, hn⟩ : Fin cfg2.N).val % 20 = 0 := (by decide : ¬(19 % 20 = 0))
  have h1 : (⟨19, hn⟩ : Fin cfg2.N).val % 20 = 19 := (by decide : 19 % 20 = 19)
  have hs : k2_pay2 (F := Ideal) (gnumBlk V c ⟨19, hn⟩) (rowsBlk V c ⟨19, hn⟩) (Fr.outsAt2 V c 18 (Nat.lt_of_succ_lt hn)).2
      = Cert.Spec.Pool2 (gnumArr V c) (rowsArr V c) := by
    rw [← Cert.Spec.PartPool_last]
    funext j
    refine Eq.trans ?_ (scratch_eq V c 19 hn j)
    rw [Fr.outsAt2_C V c ⟨19, hn⟩ h0 h1]
    dsimp only
    exact (congrFun (soutC_eq c (grid2.coords ⟨19, hn⟩) (Fr.ms2_0 ⟨19, hn⟩) (Fr.hs2_0 ⟨19, hn⟩) (Fr.ms2_1 ⟨19, hn⟩) (Fr.hs2_1 ⟨19, hn⟩) (Fr.ms2_2 ⟨19, hn⟩) (Fr.hs2_2 ⟨19, hn⟩) (Fr.ms2_3 ⟨19, hn⟩) (Fr.hs2_3 ⟨19, hn⟩) (Fr.ms2_4 ⟨19, hn⟩) (Fr.hs2_4 ⟨19, hn⟩) (Fr.ms2_5 ⟨19, hn⟩) (Fr.hs2_5 ⟨19, hn⟩) Fr.scM2_0 (Memref.isWhole_whole _) (fun h => h0 ((Fr.hcond2_0 ⟨19, hn⟩).mp h)) ((Fr.hcond2_1 ⟨19, hn⟩).mpr h1) (rowsBlk V c ⟨19, hn⟩) (gnumBlk V c ⟨19, hn⟩) (cntBlk V c ⟨19, hn⟩) (wgtBlk V c ⟨19, hn⟩) (biasBlk V c ⟨19, hn⟩) (Fr.outsAt2 V c 18 (Nat.lt_of_succ_lt hn)).2) j).symm
  funext j
  obtain ⟨g, o, rfl⟩ : ∃ (g : Fin 256) (o : Fin 1), j = ix2 g o := ⟨j 0, j 1, eq_ix2 j⟩
  obtain rfl : o = 0 := Subsingleton.elim _ _
  rw [Fr.outsAt2_C V c ⟨19, hn⟩ h0 h1]
  dsimp only
  refine (congrFun (outC_eq c (grid2.coords ⟨19, hn⟩) (Fr.ms2_0 ⟨19, hn⟩) (Fr.hs2_0 ⟨19, hn⟩) (Fr.ms2_1 ⟨19, hn⟩) (Fr.hs2_1 ⟨19, hn⟩) (Fr.ms2_2 ⟨19, hn⟩) (Fr.hs2_2 ⟨19, hn⟩) (Fr.ms2_3 ⟨19, hn⟩) (Fr.hs2_3 ⟨19, hn⟩) (Fr.ms2_4 ⟨19, hn⟩) (Fr.hs2_4 ⟨19, hn⟩) (Fr.ms2_5 ⟨19, hn⟩) (Fr.hs2_5 ⟨19, hn⟩) Fr.scM2_0 (Memref.isWhole_whole _) (fun h => h0 ((Fr.hcond2_0 ⟨19, hn⟩).mp h)) ((Fr.hcond2_1 ⟨19, hn⟩).mpr h1) (rowsBlk V c ⟨19, hn⟩) (gnumBlk V c ⟨19, hn⟩) (cntBlk V c ⟨19, hn⟩) (wgtBlk V c ⟨19, hn⟩) (biasBlk V c ⟨19, hn⟩) (Fr.outsAt2 V c 18 (Nat.lt_of_succ_lt hn)).2) (ix2 g 0)).trans ?_
  rw [hs, cntBlk_eq, wgtBlk_eq, biasBlk_eq]
  exact pay3_apply (cntArr V c) (Cert.Spec.Pool2 (gnumArr V c) (rowsArr V c)) (wgtArr V c) (biasArr V c) g

/-- What the one write-back, at the last point, writes is the output column: block (0, 0) of the 256 × 1 array is
    the array. -/
theorem flushed2_eq (c : Dev nD) (t : Fin cfg2.N) (hf : (cfg2.win 5).flush t = true) :
    (Fr.dat2 (F := Ideal) V c).flushed 5 t = ((cfg2.win 5).blk t).view.read (Elt Ideal) (outCol V c) := by
  have hN : cfg2.N = 20 := N2
  have h19 : t.val = 19 := by have := (flush2_5 t).mp hf; have := t.isLt; omega
  obtain ⟨-, -, -, -, -, -, -, -, -, -, e50, e51⟩ := idx_facts2 t
  show (cfg2.win 5).cut (grid2.coords t) ((Fr.dat2 (F := Ideal) V c).after 5 t) = _
  rw [Fr.after2_5]
  have hv : Fr.outsAt2 V c t.val t.isLt = Fr.outsAt2 V c 19 (by omega) := by congr 1
  rw [hv, out_last]
  funext j
  show outCol V c j = outCol V c (((cfg2.win 5).blk t).view.emb j)
  refine congrArg (outCol V c) (funext fun a => Fin.ext ?_)
  match a with
  | ⟨0, _⟩ => show (j 0).val = win2_5.index t (0 : Fin 2) * 256 + 1 * (j 0).val; omega
  | ⟨1, _⟩ => show (j 1).val = win2_5.index t (1 : Fin 2) * 1 + 1 * (j 1).val; omega

/-- An index of the output array is in point t's block iff each coordinate is in the block's range on its axis. -/
theorem mem_blk2 (t : Fin cfg2.N) (i : S256x1.Idx) :
    i ∈ ((cfg2.win 5).blk t).view.set ↔ ∀ a : Fin 2, win2_5.index t a * S256x1.size a ≤ (i a).val ∧ (i a).val < win2_5.index t a * S256x1.size a + S256x1.size a := by
  show i ∈ ((View.whole main_v33).slice (win2_5.rect t)).set ↔ _
  rw [View.set_slice_whole, Rect.mem_set_unit]
  exact Iff.rfl

/-- The last point's block is the whole output array. -/
theorem cover2 (i : S256x1.Idx) :
    ∃ t : Fin cfg2.N, (cfg2.win 5).flush t = true ∧ i ∈ ((cfg2.win 5).blk t).view.set := by
  have hi0 : (i 0).val < 256 := (i 0).isLt
  have hi1 : (i 1).val < 1 := (i 1).isLt
  let t : Fin cfg2.N := ⟨19, by decide⟩
  obtain ⟨-, -, -, -, -, -, -, -, -, -, e50, e51⟩ := idx_facts2 t
  refine ⟨t, (flush2_5 t).mpr rfl, ?_⟩
  rw [mem_blk2]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 1 ≤ (i 1).val ∧ (i 1).val < win2_5.index t (1 : Fin 2) * 1 + 1; omega

/-- The output array after the pooling pallas_call: the output layer of the pooled sums. -/
theorem arr2 (c : Dev nD) :
    (Fr.dat2 (F := Ideal) V c).arrAt 5 cfg2.N
      = Cert.Spec.Out2 (Cert.Spec.Pool2 (V c main_v30) (V c main_v25)) (V c main_v31) (V c main_arg5) (V c main_v32) :=
  (Fr.dat2 (F := Ideal) V c).arrAt_eq_of_cover 5 (outCol V c) (fun t hf => flushed2_eq V c t hf) cover2

end Cert.KernelIdeal.Val

end
-- ==== Proof.KI.MatMul.lean ====
/-
  The body's matrix product at an entry.  Both linear layers multiply a 5000 × 128 block by the whole
  128 × 128 weight matrix, accumulating into the zero block: at the extended reals entry (p, q) of the
  result is the sum over k of entry (p, k) of the block times entry (k, q) of the weights.
-/
import proofs.«419784_j30691836297408_1_alg».proof.Proof.Gen.KernelIdeal
import Idealize.ShloMosaic.Lib.ValueIdx
import Idealize.ShloMosaic.PureOps.Ideal.Laws

noncomputable section

namespace Cert.KernelIdeal.Val

open Idealize.ShloMosaic Idealize.ShloMosaic.ValueIdx
open Cert.KernelIdeal Cert.KernelIdeal.Gen

/-- The left operand is read at the result's row -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and the contracted column; -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted row -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and the result's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product accumulated into the zero block: the sum over k of a (p, k) · b (k, q). -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

end Cert.KernelIdeal.Val

end
-- ==== Proof.KI.Val0.lean ====
/-
  What the first linear layer's pallas_call leaves in its output array, at the extended reals: the matrix
  product of the node features with the weights.  Point t of the 20-point grid takes rows 5000 t … 5000 t + 4999
  of the features and the whole weight matrix, and writes rows 5000 t … 5000 t + 4999 of the product; the
  twenty row blocks tile the array.
-/
import proofs.«419784_j30691836297408_1_alg».proof.Proof.KI.Reg0
import proofs.«419784_j30691836297408_1_alg».proof.Proof.KI.MatMul
import proofs.«419784_j30691836297408_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz0 : (![0, 0] : Fin 2 → Nat) = fun _ => 0 := funext fun a => by fin_cases a <;> rfl

/-- Entry (p, q) of what the body leaves in the output block: the sum over k of entry (p, k) of the feature
    block times entry (k, q) of the weights. -/
theorem out0_apply (x0 : Vec Ideal S5000x128 .f32) (x1 : Vec Ideal S128x128 .f32) (p : Fin 5000) (q : Fin 128) :
    Fr.out0_2 (F := Ideal) x0 x1 (ix2 p q) = ∑ k : Fin 128, x0 (ix2 p k) * x1 (ix2 k q) := by
  unfold Fr.out0_2
  rw [View.canon_unit_zero hz0]
  simp only [View.ld_unit_zero (S := S5000x128) hz0, View.ld_unit_zero (S := S128x128) hz0]
  unfold k0_pay1
  exact mm_apply _ _ p q

/-- If the feature block is rows 5000 n … 5000 n + 4999 of X and the weight block is W, the output block's
    entry (p, q) is entry (5000 n + p, q) of the product X · W. -/
theorem blk0_eq (X : Cert.Spec.SNx.Idx → EReal) (W : Cert.Spec.SWx.Idx → EReal)
    (x0 : Vec Ideal S5000x128 .f32) (x1 : Vec Ideal S128x128 .f32) (n : Nat)
    (h0 : ∀ (p : Fin 5000) (k : Fin 128) (r : Fin 100000), r.val = n * 5000 + p.val → x0 (ix2 p k) = X (ix2 r k))
    (h1 : ∀ (k q : Fin 128), x1 (ix2 k q) = W (ix2 k q))
    (j : S5000x128.Idx) (i : Cert.Spec.SNx.Idx) (hi0 : (i 0).val = n * 5000 + (j 0).val) (hi1 : (i 1).val = (j 1).val) :
    Fr.out0_2 (F := Ideal) x0 x1 j = Cert.Spec.MM X W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [out0_apply]
  unfold Cert.Spec.MM
  refine Finset.sum_congr rfl fun k _ => ?_
  rw [h0 p k r hi0, h1 k s]

/-- The printed index maps over the grid: at point t the feature window and the output window are at block
    (t, 0), the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the features with the weights. -/
theorem flushed0_eq (c : Dev nD) (t : Fin cfg0.N) :
    (Fr.dat0 (F := Ideal) V c).flushed 2 t
      = ((cfg0.win 2).blk t).view.read (Elt Ideal) (Cert.Spec.MM (V c main_arg0) (V c main_arg3)) := by
  show (cfg0.win 2).cut (grid0.coords t) ((Fr.dat0 (F := Ideal) V c).after 2 t) = _
  rw [Fr.after0_2]
  obtain ⟨e00, e01, e10, e11, e20, e21⟩ := idx_facts0 t
  funext j
  refine blk0_eq (V c main_arg0) (V c main_arg3) (Fr.iblk0 V c 0 t) (Fr.iblk0 V c 1 t) t.val ?_ ?_ j (((cfg0.win 2).blk t).view.emb j) ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro k q
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * (j 0).val = t.val * 5000 + (j 0).val; omega
  · show win0_2.index t (1 : Fin 2) * 128 + 1 * (j 1).val = (j 1).val; omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Row r of the array is in the block of point r / 5000: the twenty row blocks tile the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e00, e01, e10, e11, e20, e21⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the first pallas_call: the product of the node features with the weights. -/
theorem arr0 (c : Dev nD) :
    (Fr.dat0 (F := Ideal) V c).arrAt 2 cfg0.N = Cert.Spec.MM (V c main_arg0) (V c main_arg3) :=
  (Fr.dat0 (F := Ideal) V c).arrAt_eq_of_cover 2 (Cert.Spec.MM (V c main_arg0) (V c main_arg3))
    (fun t _ => flushed0_eq V c t) cover0

end Cert.KernelIdeal.Val

end
-- ==== Proof.KI.Val1.lean ====
/-
  What the second linear layer's pallas_call leaves in its output array, at the extended reals: the matrix
  product of the first aggregation's entrywise maximum with zero and the weights.  Point t of the 20-point grid
  takes rows 5000 t … 5000 t + 4999 of the aggregation and the whole weight matrix, and writes rows
  5000 t … 5000 t + 4999 of the product; the twenty row blocks tile the array.
-/
import proofs.«419784_j30691836297408_1_alg».proof.Proof.KI.Reg1
import proofs.«419784_j30691836297408_1_alg».proof.Proof.KI.MatMul
import proofs.«419784_j30691836297408_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz1 : (![0, 0] : Fin 2 → Nat) = fun _ => 0 := funext fun a => by fin_cases a <;> rfl

/-- Entry (p, q) of what the body leaves in the output block: the sum over k of the larger of entry (p, k) of
    the input block and zero, times entry (k, q) of the weights. -/
theorem out1_apply (x0 : Vec Ideal S5000x128 .f32) (x1 : Vec Ideal S128x128 .f32) (p : Fin 5000) (q : Fin 128) :
    Fr.out1_2 (F := Ideal) x0 x1 (ix2 p q) = ∑ k : Fin 128, max (x0 (ix2 p k)) Cert.Spec.zeroE * x1 (ix2 k q) := by
  unfold Fr.out1_2
  rw [View.canon_unit_zero hz1]
  simp only [View.ld_unit_zero (S := S5000x128) hz1, View.ld_unit_zero (S := S128x128) hz1]
  unfold k1_pay1
  refine (mm_apply _ _ p q).trans (Finset.sum_congr rfl fun k _ => ?_)
  show max (shapeCast S5000x128 x0 shapeCasts_S5000x128_S5000x128 (ix2 p k)) (Ideal.ofBits .f32 0x00000000#32) * x1 (ix2 k q) = _
  rw [shapeCast_self]

/-- If the input block is rows 5000 n … 5000 n + 4999 of X and the weight block is W, the output block's
    entry (p, q) is entry (5000 n + p, q) of the product of X's entrywise maximum with zero and W. -/
theorem blk1_eq (X : Cert.Spec.SNx.Idx → EReal) (W : Cert.Spec.SWx.Idx → EReal)
    (x0 : Vec Ideal S5000x128 .f32) (x1 : Vec Ideal S128x128 .f32) (n : Nat)
    (h0 : ∀ (p : Fin 5000) (k : Fin 128) (r : Fin 100000), r.val = n * 5000 + p.val → x0 (ix2 p k) = X (ix2 r k))
    (h1 : ∀ (k q : Fin 128), x1 (ix2 k q) = W (ix2 k q))
    (j : S5000x128.Idx) (i : Cert.Spec.SNx.Idx) (hi0 : (i 0).val = n * 5000 + (j 0).val) (hi1 : (i 1).val = (j 1).val) :
    Fr.out1_2 (F := Ideal) x0 x1 j = Cert.Spec.MM (Cert.Spec.Relu X) W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [out1_apply]
  unfold Cert.Spec.MM Cert.Spec.Relu
  refine Finset.sum_congr rfl fun k _ => ?_
  rw [h0 p k r hi0, h1 k s]

/-- The printed index maps over the grid: at point t the input window and the output window are at block
    (t, 0), the weight window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the first aggregation's entrywise maximum with zero
    and the weights. -/
theorem flushed1_eq (c : Dev nD) (t : Fin cfg1.N) :
    (Fr.dat1 (F := Ideal) V c).flushed 2 t
      = ((cfg1.win 2).blk t).view.read (Elt Ideal) (Cert.Spec.MM (Cert.Spec.Relu (V c main_v14)) (V c main_arg4)) := by
  show (cfg1.win 2).cut (grid1.coords t) ((Fr.dat1 (F := Ideal) V c).after 2 t) = _
  rw [Fr.after1_2]
  obtain ⟨e00, e01, e10, e11, e20, e21⟩ := idx_facts1 t
  funext j
  refine blk1_eq (V c main_v14) (V c main_arg4) (Fr.iblk1 V c 0 t) (Fr.iblk1 V c 1 t) t.val ?_ ?_ j (((cfg1.win 2).blk t).view.emb j) ?_ ?_
  · intro p k r hr
    show V c main_v14 (((cfg1.win 0).blk t).view.emb (ix2 p k)) = V c main_v14 (ix2 r k)
    refine congrArg (V c main_v14) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  · intro k q
    show V c main_arg4 (((cfg1.win 1).blk t).view.emb (ix2 k q)) = V c main_arg4 (ix2 k q)
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show win1_2.index t (0 : Fin 2) * 5000 + 1 * (j 0).val = t.val * 5000 + (j 0).val; omega
  · show win1_2.index t (1 : Fin 2) * 128 + 1 * (j 1).val = (j 1).val; omega

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Row r of the array is in the block of point r / 5000: the twenty row blocks tile the array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨e00, e01, e10, e11, e20, e21⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the second pallas_call: the product of the first aggregation's entrywise maximum
    with zero and the weights. -/
theorem arr1 (c : Dev nD) :
    (Fr.dat1 (F := Ideal) V c).arrAt 2 cfg1.N = Cert.Spec.MM (Cert.Spec.Relu (V c main_v14)) (V c main_arg4) :=
  (Fr.dat1 (F := Ideal) V c).arrAt_eq_of_cover 2 (Cert.Spec.MM (Cert.Spec.Relu (V c main_v14)) (V c main_arg4))
    (fun t _ => flushed1_eq V c t) cover1

end Cert.KernelIdeal.Val

end
-- ==== Proof.KI.GlueA.lean ====
/-
  The values the program's buffers hold between its pallas_calls, at the extended reals.  The first call
  leaves the product of the features with the first weights; the host stretch after it sums, for every edge,
  the source node's row into the destination node's row; the second call leaves the product of that sum's
  entrywise maximum with zero and the second weights; the next stretch sums along the edges again, counts the
  nodes of every graph and lays the graph numbers, the counts and the bias out as columns.
-/
import proofs.«419784_j30691836297408_1_alg».proof.Proof.KI.Run
import proofs.«419784_j30691836297408_1_alg».proof.Proof.KI.Val0
import proofs.«419784_j30691836297408_1_alg».proof.Proof.KI.Val1
import proofs.«419784_j30691836297408_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg) {c : Dev nD}

/-- Row 0 and row 1 of the edge list as vectors: the edges' source and destination nodes. -/
def srcRow (ei : IVec S2x1600000 32) : IVec S1600000 32 :=
  shapeCast _ (extractStridedSlice S1x1600000 ![0, 0] ei slices_S2x1600000_S1x1600000_0_0) shapeCasts_S1x1600000_S1600000
def dstRow (ei : IVec S2x1600000 32) : IVec S1600000 32 :=
  shapeCast _ (extractStridedSlice S1x1600000 ![1, 0] ei slices_S2x1600000_S1x1600000_1_0) shapeCasts_S1x1600000_S1600000

/-- The neighbourhood sum: every edge adds its source node's row of `h` (a negative node number wrapped once by
    the node count) to its destination node's row of zero. -/
def AggK (h : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The number of nodes of every graph. -/
def CntK (b : IVec S100000 32) : FVec Ideal S256 .f32 :=
  Host.scatterAdd scatter_S256_S100000x1_S100000_n_0_0_1 (broadcastInDim S256 ![] bcast_S_S256 (constant S_ .f32 0x00000000#32))
    (broadcastInDim S100000x1 ![0] bcast_S100000_S100000x1_0 b) (broadcastInDim S100000 ![] bcast_S_S100000 (constant S_ .f32 0x3F800000#32))

/-! ## After the first host stretch -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

/-! ## The first pallas_call's product -/

theorem W2_v4 (c : Dev nD) : W2 m ρ c (Proc.devRef .tc main_v4)
    = Cert.Spec.MM (m ((c : Thread nD τ).loc main_arg0)) (m ((c : Thread nD τ).loc main_arg3)) := by
  rw [show W2 m ρ c (Proc.devRef .tc main_v4) = (dat0 (V1 m ρ) c).arrAt 2 cfg0.N from W2_arr m ρ c 2, arr0 (V1 m ρ) c]
  rw [show V1 m ρ c main_arg0 = m ((c : Thread nD τ).loc main_arg0) from (W1_of m ρ c main_arg0 (by decide)).trans rfl,
    show V1 m ρ c main_arg3 = m ((c : Thread nD τ).loc main_arg3) from (W1_of m ρ c main_arg3 (by decide)).trans rfl]

/-! ## After the second host stretch: the first neighbourhood sum -/

theorem W3_v14 (c : Dev nD) : W3 m ρ c (Proc.devRef .tc main_v14)
    = AggK (W2 m ρ c (Proc.devRef .tc main_v4)) (W2 m ρ c (Proc.devRef .tc main_v1)) (W2 m ρ c (Proc.devRef .tc main_v3)) := by
  show StableHlo.after hostOps1 (W2 m ρ c) (Proc.devRef .tc main_v14) = _
  after_results
  rfl

theorem W2_v1 (c : Dev nD) : W2 m ρ c (Proc.devRef .tc main_v1) = srcRow (m ((c : Thread nD τ).loc main_arg1)) :=
  (W2_of_ne m ρ c main_v1 (by decide)).trans (W1_v1 m ρ c)
theorem W2_v3 (c : Dev nD) : W2 m ρ c (Proc.devRef .tc main_v3) = dstRow (m ((c : Thread nD τ).loc main_arg1)) :=
  (W2_of_ne m ρ c main_v3 (by decide)).trans (W1_v3 m ρ c)

/-- The first neighbourhood sum, of the argument arrays. -/
def agg1 (c : Dev nD) : FVec Ideal S100000x128 .f32 :=
  AggK (Cert.Spec.MM (m ((c : Thread nD τ).loc main_arg0)) (m ((c : Thread nD τ).loc main_arg3)))
    (srcRow (m ((c : Thread nD τ).loc main_arg1))) (dstRow (m ((c : Thread nD τ).loc main_arg1)))

theorem W3_v14_eq (c : Dev nD) : W3 m ρ c (Proc.devRef .tc main_v14) = agg1 m c := by
  rw [W3_v14, W2_v4, W2_v1, W2_v3]; rfl

/-! ## The second pallas_call's product -/

theorem W4_v15 (c : Dev nD) : W4 m ρ c (Proc.devRef .tc main_v15)
    = Cert.Spec.MM (Cert.Spec.Relu (agg1 m c)) (m ((c : Thread nD τ).loc main_arg4)) := by
  rw [show W4 m ρ c (Proc.devRef .tc main_v15) = (dat1 (V3 m ρ) c).arrAt 2 cfg1.N from W4_arr m ρ c 2, arr1 (V3 m ρ) c]
  rw [show V3 m ρ c main_v14 = agg1 m c from W3_v14_eq m ρ c,
    show V3 m ρ c main_arg4 = m ((c : Thread nD τ).loc main_arg4) from
      (W3_of m ρ c main_arg4 (by decide)).trans ((W2_of_ne m ρ c main_arg4 (by decide)).trans ((W1_of m ρ c main_arg4 (by decide)).trans rfl))]

theorem W4_v1 (c : Dev nD) : W4 m ρ c (Proc.devRef .tc main_v1) = srcRow (m ((c : Thread nD τ).loc main_arg1)) :=
  (W4_of_ne m ρ c main_v1 (by decide)).trans ((W3_of m ρ c main_v1 (by decide)).trans (W2_v1 m ρ c))
theorem W4_v3 (c : Dev nD) : W4 m ρ c (Proc.devRef .tc main_v3) = dstRow (m ((c : Thread nD τ).loc main_arg1)) :=
  (W4_of_ne m ρ c main_v3 (by decide)).trans ((W3_of m ρ c main_v3 (by decide)).trans (W2_v3 m ρ c))
theorem W4_arg2 (c : Dev nD) : W4 m ρ c (Proc.devRef .tc main_arg2) = m ((c : Thread nD τ).loc main_arg2) :=
  (W4_of_ne m ρ c main_arg2 (by decide)).trans ((W3_of m ρ c main_arg2 (by decide)).trans ((W2_of_ne m ρ c main_arg2 (by decide)).trans ((W1_of m ρ c main_arg2 (by decide)).trans rfl)))
theorem W4_arg6 (c : Dev nD) : W4 m ρ c (Proc.devRef .tc main_arg6) = m ((c : Thread nD τ).loc main_arg6) :=
  (W4_of_ne m ρ c main_arg6 (by decide)).trans ((W3_of m ρ c main_arg6 (by decide)).trans ((W2_of_ne m ρ c main_arg6 (by decide)).trans ((W1_of m ρ c main_arg6 (by decide)).trans rfl)))
theorem W5_arg5 (c : Dev nD) : W5 m ρ c (Proc.devRef .tc main_arg5) = m ((c : Thread nD τ).loc main_arg5) :=
  (W5_of m ρ c main_arg5 (by decide)).trans ((W4_of_ne m ρ c main_arg5 (by decide)).trans ((W3_of m ρ c main_arg5 (by decide)).trans ((W2_of_ne m ρ c main_arg5 (by decide)).trans ((W1_of m ρ c main_arg5 (by decide)).trans rfl))))

/-! ## After the third host stretch: the second neighbourhood sum, the counts, the columns -/

/-- The second neighbourhood sum, of the argument arrays. -/
def agg2 (c : Dev nD) : FVec Ideal S100000x128 .f32 :=
  AggK (Cert.Spec.MM (Cert.Spec.Relu (agg1 m c)) (m ((c : Thread nD τ).loc main_arg4)))
    (srcRow (m ((c : Thread nD τ).loc main_arg1))) (dstRow (m ((c : Thread nD τ).loc main_arg1)))

theorem W5_v25 (c : Dev nD) : W5 m ρ c (Proc.devRef .tc main_v25) = agg2 m c := by
  have h : W5 m ρ c (Proc.devRef .tc main_v25)
      = AggK (W4 m ρ c (Proc.devRef .tc main_v15)) (W4 m ρ c (Proc.devRef .tc main_v1)) (W4 m ρ c (Proc.devRef .tc main_v3)) := by
    show StableHlo.after hostOps2 (W4 m ρ c) (Proc.devRef .tc main_v25) = _
    after_results
    rfl
  rw [h, W4_v15, W4_v1, W4_v3]; rfl

theorem W5_v30 (c : Dev nD) : W5 m ρ c (Proc.devRef .tc main_v30)
    = shapeCast _ (m ((c : Thread nD τ).loc main_arg2)) shapeCasts_S100000_S100000x1 := by
  have h : W5 m ρ c (Proc.devRef .tc main_v30) = shapeCast _ (W4 m ρ c (Proc.devRef .tc main_arg2)) shapeCasts_S100000_S100000x1 := by
    show StableHlo.after hostOps2 (W4 m ρ c) (Proc.devRef .tc main_v30) = _
    after_results
    rfl
  rw [h, W4_arg2]

theorem W5_v31 (c : Dev nD) : W5 m ρ c (Proc.devRef .tc main_v31)
    = shapeCast _ (CntK (m ((c : Thread nD τ).loc main_arg2))) shapeCasts_S256_S256x1 := by
  have h : W5 m ρ c (Proc.devRef .tc main_v31) = shapeCast _ (CntK (W4 m ρ c (Proc.devRef .tc main_arg2))) shapeCasts_S256_S256x1 := by
    show StableHlo.after hostOps2 (W4 m ρ c) (Proc.devRef .tc main_v31) = _
    after_results
    rfl
  rw [h, W4_arg2]

theorem W5_v32 (c : Dev nD) : W5 m ρ c (Proc.devRef .tc main_v32)
    = shapeCast _ (m ((c : Thread nD τ).loc main_arg6)) shapeCasts_S1_S1x1 := by
  have h : W5 m ρ c (Proc.devRef .tc main_v32) = shapeCast _ (W4 m ρ c (Proc.devRef .tc main_arg6)) shapeCasts_S1_S1x1 := by
    show StableHlo.after hostOps2 (W4 m ρ c) (Proc.devRef .tc main_v32) = _
    after_results
    rfl
  rw [h, W4_arg6]

/-! ## The columns read at an index -/

theorem col_apply {α : Type} (x : S100000.Idx → α) (r : Fin 100000) :
    shapeCast S100000x1 x shapeCasts_S100000_S100000x1 (ix2 r 0) = x (ix1 r) :=
  shapeCast_apply x _ (ix2 r 0) (ix1 r) (by rw [Shape.rowMajor_val_one, Shape.rowMajor_val_two]; simp)
theorem col256_apply {α : Type} (x : S256.Idx → α) (g : Fin 256) :
    shapeCast S256x1 x shapeCasts_S256_S256x1 (ix2 g 0) = x (ix1 g) :=
  shapeCast_apply x _ (ix2 g 0) (ix1 g) (by rw [Shape.rowMajor_val_one, Shape.rowMajor_val_two]; simp)
theorem col1_apply {α : Type} (x : S1.Idx → α) :
    shapeCast S1x1 x shapeCasts_S1_S1x1 (ix2 0 0) = x (ix1 0) :=
  shapeCast_apply x _ (ix2 0 0) (ix1 0) (by rw [Shape.rowMajor_val_one, Shape.rowMajor_val_two]; simp)

/-- THE RESULT, given what the pooling kernel's write-back folds to: the specification's function of the
    argument arrays. -/
theorem W6_v33 (harr2 : (dat2 (F := Ideal) (V5 m ρ) c).arrAt 5 cfg2.N
      = Cert.Spec.Out2 (Cert.Spec.Pool2 (V5 m ρ c main_v30) (V5 m ρ c main_v25)) (V5 m ρ c main_v31) (V5 m ρ c main_arg5) (V5 m ρ c main_v32))
    : W6 m ρ c (Proc.devRef .tc main_v33)
      = Cert.Spec.Out (Cert.Spec.Pool (m ((c : Thread nD τ).loc main_arg2)) (agg2 m c)) (CntK (m ((c : Thread nD τ).loc main_arg2)))
          (m ((c : Thread nD τ).loc main_arg5)) (m ((c : Thread nD τ).loc main_arg6)) := by
  rw [W6_main_v33 m ρ c, harr2]
  rw [show V5 m ρ c main_v30 = _ from W5_v30 m ρ c, show V5 m ρ c main_v25 = _ from W5_v25 m ρ c,
    show V5 m ρ c main_v31 = _ from W5_v31 m ρ c, show V5 m ρ c main_arg5 = _ from W5_arg5 m ρ c,
    show V5 m ρ c main_v32 = _ from W5_v32 m ρ c]
  rw [Cert.Spec.Pool2_eq _ (m ((c : Thread nD τ).loc main_arg2)) _ (fun r => col_apply _ r)]
  exact Cert.Spec.Out2_eq _ _ _ _ _ _ (fun g => col256_apply _ g) (col1_apply _)

end Cert.KernelIdeal.Val

end
-- ==== Proof.RefSpec.lean ====
/-
  The reference program's result is the specification.

  The reference computes, in order: the product `x · W₁`; the neighbourhood sum of its rows over the edges (every edge
  adds its source node's row to its destination node's row); the maximum with zero; the product with `W₂`; the
  neighbourhood sum again; the per-graph sums of the rows (row `r` goes to graph `b r`); the per-graph node counts;
  the quotient by the larger of count and one; the product with the 128 × 1 output weights plus the bias; and
  `1 / (1 + exp (−z))`.  Over the extended reals each stage but the neighbourhood sums and the counts is read index
  by index and is the specification's function of the same name: a matrix product is the sum over the contracted
  axis; the pooling scatter's element `(g, d)` is the sum of the updates `(r, d)` with `b r = g` (the zero it
  starts from adds nothing); `1 / (1 + exp (−z))` is the logistic function of `z`.  The neighbourhood sums
  (`Agg`) and the counts (`Cnt`) are kept as the host operations they are, named here with the edge list's two
  rows (`Src`, `Dst`).
-/
import proofs.«419784_j30691836297408_1_alg».proof.Proof.Gen.ReferenceIdeal.Run
import proofs.«419784_j30691836297408_1_alg».proof.Proof.Gen.ReferenceIdeal.Read
import proofs.«419784_j30691836297408_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-- The source node of every edge: row 0 of the edge list, a negative entry wrapped once by the node count. -/
def Src (ei : IVec S2x1600000 32) : IVec S1600000x1 32 :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The destination node of every edge: row 1 of the edge list. -/
def Dst (ei : IVec S2x1600000 32) : IVec S1600000x1 32 :=
  broadcastInDim S1600000x1 ![0] bcast_S1600000_S1600000x1_0 (shapeCast _ (extractStridedSlice S1x1600000 ![1, 0] ei slices_S2x1600000_S1x1600000_1_0) shapeCasts_S1x1600000_S1600000)

/-- The neighbourhood sum: every edge adds its source node's row of `h` to its destination node's row of zero. -/
def Agg (h : FVec F S100000x128 .f32) (ei : IVec S2x1600000 32) : FVec F S100000x128 .f32 :=
  Host.scatterAdd scatter_S100000x128_S1600000x1_S1600000x128_1_0_0_1 (broadcastInDim S100000x128 ![] bcast_S_S100000x128 (constant S_ .f32 0x00000000#32)) (Dst ei) (Host.gather gather_S100000x128_S1600000x1_S1600000x128_1_0_n_n_0_1_1128 h (Src ei))

/-- The number of nodes of every graph: every node adds one to its graph's entry of zero. -/
def Cnt (b : IVec S100000 32) : FVec F S256 .f32 :=
  Host.scatterAdd scatter_S256_S100000x1_S100000_n_0_0_1 (broadcastInDim S256 ![] bcast_S_S256 (constant S_ .f32 0x00000000#32)) (broadcastInDim S100000x1 ![0] bcast_S100000_S100000x1_0 b) (broadcastInDim S100000 ![] bcast_S_S100000 (constant S_ .f32 0x3F800000#32))

/-- On the graph axis the window starts at the row's graph number, read signed. -/
theorem pool_start0 (j : S100000x128.Idx) (idx : IVec S100000x1 32) :
    scatter_S256x128_S100000x1_S100000x128_1_0_0_1.start j idx 0 = (idx (ix2 (j 0) 0)).toInt := by
  unfold ScatterDims.start
  rw [dif_pos (show (0 : Fin S256x128.rank) ∈ scatter_S256x128_S100000x1_S100000x128_1_0_0_1.scatterDimsToOperandDims by decide)]
  have hsi : scatter_S256x128_S100000x1_S100000x128_1_0_0_1.siIdx j ⟨List.idxOf (0 : Fin S256x128.rank) scatter_S256x128_S100000x1_S100000x128_1_0_0_1.scatterDimsToOperandDims,
      List.idxOf_lt_length_iff.2 (by decide)⟩ = ix2 (j 0) 0 := by
    funext b; refine Fin.ext ?_
    match b with
    | ⟨0, _⟩ => rfl
    | ⟨1, _⟩ => rfl
  exact congrArg (fun v => (idx v).toInt) hsi

/-- On the feature axis it starts at zero. -/
theorem pool_start1 (j : S100000x128.Idx) (idx : IVec S100000x1 32) : scatter_S256x128_S100000x1_S100000x128_1_0_0_1.start j idx 1 = 0 := by
  unfold ScatterDims.start
  rw [dif_neg (show ¬(1 : Fin S256x128.rank) ∈ scatter_S256x128_S100000x1_S100000x128_1_0_0_1.scatterDimsToOperandDims by decide)]

/-- The window coordinate is zero on the graph axis and the update's feature on the feature axis. -/
theorem pool_window0 (j : S100000x128.Idx) : scatter_S256x128_S100000x1_S100000x128_1_0_0_1.window j 0 = 0 := by
  unfold ScatterDims.window
  rw [dif_neg (show ¬(0 : Fin S256x128.rank) ∈ scatter_S256x128_S100000x1_S100000x128_1_0_0_1.sKept by decide)]

theorem pool_window1 (j : S100000x128.Idx) : scatter_S256x128_S100000x1_S100000x128_1_0_0_1.window j 1 = (j 1).val := by
  unfold ScatterDims.window
  rw [dif_pos (show (1 : Fin S256x128.rank) ∈ scatter_S256x128_S100000x1_S100000x128_1_0_0_1.sKept by decide)]
  rfl

/-- Update `(r, c)` lands on element `(g, d)` exactly when row `r`'s graph number, read signed, is `g` and `c = d`;
    a row whose graph number is outside `0 … 255` lands nowhere. -/
theorem pool_resultIdx (idx : IVec S100000x1 32) (j : S100000x128.Idx) (i : S256x128.Idx) :
    scatter_S256x128_S100000x1_S100000x128_1_0_0_1.resultIdx? j idx = some i ↔ (idx (ix2 (j 0) 0)).toInt = ((i 0).val : Int) ∧ (j 1).val = (i 1).val := by
  have h0 := pool_start0 j idx
  have h1 := pool_start1 j idx
  have w0 := pool_window0 j
  have w1 := pool_window1 j
  have hi0 : (i 0).val < 256 := (i 0).isLt
  have hi1 : (i 1).val < 128 := (i 1).isLt
  have hj1 : (j 1).val < 128 := (j 1).isLt
  have s0 : S256x128.size 0 = 256 := rfl
  have s1 : S256x128.size 1 = 128 := rfl
  unfold ScatterDims.resultIdx?
  by_cases h : ∀ a, 0 ≤ scatter_S256x128_S100000x1_S100000x128_1_0_0_1.start j idx a + scatter_S256x128_S100000x1_S100000x128_1_0_0_1.window j a ∧ scatter_S256x128_S100000x1_S100000x128_1_0_0_1.start j idx a + scatter_S256x128_S100000x1_S100000x128_1_0_0_1.window j a < S256x128.size a
  · rw [dif_pos h]
    have e0 := h 0
    have e1 := h 1
    rw [h0, w0, s0] at e0
    rw [h1, w1, s1] at e1
    constructor
    · intro e
      have e' := Option.some.inj e
      have a0 : (scatter_S256x128_S100000x1_S100000x128_1_0_0_1.start j idx 0 + scatter_S256x128_S100000x1_S100000x128_1_0_0_1.window j 0).toNat = (i 0).val := congrArg (fun f => (f 0).val) e'
      have a1 : (scatter_S256x128_S100000x1_S100000x128_1_0_0_1.start j idx 1 + scatter_S256x128_S100000x1_S100000x128_1_0_0_1.window j 1).toNat = (i 1).val := congrArg (fun f => (f 1).val) e'
      rw [h0, w0] at a0
      rw [h1, w1] at a1
      constructor <;> omega
    · rintro ⟨p, q⟩
      congr 1; funext a; refine Fin.ext ?_
      match a with
      | ⟨0, _⟩ =>
        show (scatter_S256x128_S100000x1_S100000x128_1_0_0_1.start j idx 0 + scatter_S256x128_S100000x1_S100000x128_1_0_0_1.window j 0).toNat = (i 0).val
        rw [h0, w0]; omega
      | ⟨1, _⟩ =>
        show (scatter_S256x128_S100000x1_S100000x128_1_0_0_1.start j idx 1 + scatter_S256x128_S100000x1_S100000x128_1_0_0_1.window j 1).toNat = (i 1).val
        rw [h1, w1]; omega
  · rw [dif_neg h]
    constructor
    · intro e; cases e
    · rintro ⟨p, q⟩
      exfalso; apply h; intro a
      match a with
      | ⟨0, _⟩ =>
        show 0 ≤ scatter_S256x128_S100000x1_S100000x128_1_0_0_1.start j idx 0 + scatter_S256x128_S100000x1_S100000x128_1_0_0_1.window j 0 ∧ scatter_S256x128_S100000x1_S100000x128_1_0_0_1.start j idx 0 + scatter_S256x128_S100000x1_S100000x128_1_0_0_1.window j 0 < S256x128.size 0
        rw [h0, w0, s0]; omega
      | ⟨1, _⟩ =>
        show 0 ≤ scatter_S256x128_S100000x1_S100000x128_1_0_0_1.start j idx 1 + scatter_S256x128_S100000x1_S100000x128_1_0_0_1.window j 1 ∧ scatter_S256x128_S100000x1_S100000x128_1_0_0_1.start j idx 1 + scatter_S256x128_S100000x1_S100000x128_1_0_0_1.window j 1 < S256x128.size 1
        rw [h1, w1, s1]; omega

/-- The zero array reads zero. -/
theorem zeros256_apply (i : S256x128.Idx) :
    (broadcastInDim S256x128 ![] bcast_S_S256x128 (constant S_ .f32 0x00000000#32) : FVec Ideal S256x128 .f32) i = 0 :=
  ((Read.val_main_v31_apply (F := Ideal) i).trans (Read.val_main_cst_4_apply _)).trans Ideal.ofBits_zero_f32

/-- The graph numbers as a column read the graph number of the row. -/
theorem batchCol_apply (b : IVec S100000 32) (r : Fin 100000) :
    broadcastInDim S100000x1 ![0] bcast_S100000_S100000x1_0 b (ix2 r 0) = b (ix1 r) :=
  (Read.val_main_v32_apply (F := Ideal) b (ix2 r 0)).trans
    (congrArg b (funext fun a => by match a with | ⟨0, _⟩ => rfl))

/-- THE POOLING SCATTER: element `(g, d)` of the accumulated zero array is the sum over the rows whose graph number is
    `g` of their feature `d`: the updates landing on `(g, d)` are the `(r, d)` with `b r = g`, one per such row. -/
theorem pool_eq (b : IVec S100000 32) (a : FVec Ideal S100000x128 .f32) :
    Host.scatterAdd scatter_S256x128_S100000x1_S100000x128_1_0_0_1 (broadcastInDim S256x128 ![] bcast_S_S256x128 (constant S_ .f32 0x00000000#32))
      (broadcastInDim S100000x1 ![0] bcast_S100000_S100000x1_0 b) a = Cert.Spec.Pool b a := by
  funext i
  show Ideal.hostScatterAdd scatter_S256x128_S100000x1_S100000x128_1_0_0_1 _ _ a i = _
  unfold Ideal.hostScatterAdd Cert.Spec.Pool
  rw [zeros256_apply, zero_add, Finset.sum_filter, sum_idx2]
  refine Finset.sum_congr rfl fun r _ => ?_
  have hb := batchCol_apply b r
  by_cases hA : (b (ix1 r)).toInt = ((i 0).val : Int)
  · rw [if_pos hA]
    refine (Finset.sum_eq_single (i 1 : Fin 128) ?_ ?_).trans ?_
    · intro c _ hc
      exact if_neg fun h => hc (Fin.ext ((pool_resultIdx _ _ _).1 h).2)
    · intro h; exact absurd (Finset.mem_univ _) h
    · exact if_pos ((pool_resultIdx _ _ _).2 ⟨(congrArg BitVec.toInt hb).trans hA, rfl⟩)
  · rw [if_neg hA]
    exact Finset.sum_eq_zero fun c _ => if_neg fun h => hA ((congrArg BitVec.toInt hb).symm.trans ((pool_resultIdx _ _ _).1 h).1)

/-- The host's product of a 100000 × 128 matrix with a 128 × 128 one is the specification's, entry by entry. -/
theorem mm_eq (x : FVec Ideal S100000x128 .f32) (w : FVec Ideal S128x128 .f32) :
    Host.dotGeneral dot_S100000x128_S128x128_S100000x128_1_0_0_1_n_n none x w = Cert.Spec.MM x w := by
  funext i
  refine (Read.val_main_v0_apply x w i).trans ?_
  unfold Cert.Spec.MM
  refine Finset.sum_congr rfl fun k _ => ?_
  have el : Read.lidx_main_v0 i k = ix2 (i 0) k := funext fun a => by match a with | ⟨0, _⟩ => rfl | ⟨1, _⟩ => rfl
  have er : Read.ridx_main_v0 i k = ix2 k (i 1) := funext fun a => by match a with | ⟨0, _⟩ => rfl | ⟨1, _⟩ => rfl
  exact congrArg₂ (· * ·) (congrArg x el) (congrArg w er)

/-- The maximum with the zero array is the specification's. -/
theorem relu_eq (a : FVec Ideal S100000x128 .f32) :
    maximumf a (broadcastInDim S100000x128 ![] bcast_S_S100000x128 (constant S_ .f32 0x00000000#32)) = Cert.Spec.Relu a := by
  funext i
  exact congrArg (max (a i)) ((Read.val_main_call0_v0_apply (F := Ideal) i).trans (Read.val_main_call0_cst_apply _))

/-- The word of the float 1.0 is the extended real one. -/
theorem ofBits_one_f32 : Ideal.ofBits .f32 0x3F800000#32 = 1 := by
  simp [Ideal.ofBits, Ideal.ieee, -EReal.coe_mul]; norm_num

/-- The array of ones reads one. -/
theorem one256x1_apply (i : S256x1.Idx) :
    (broadcastInDim S256x1 ![] bcast_S_S256x1 (constant S_ .f32 0x3F800000#32) : FVec Ideal S256x1 .f32) i = 1 :=
  ((Read.val_main_v49_apply (F := Ideal) i).trans (Read.val_main_cst_8_apply _)).trans ofBits_one_f32

theorem ones256_apply (i : S256.Idx) :
    (broadcastInDim S256 ![] bcast_S_S256 (constant S_ .f32 0x3F800000#32) : FVec Ideal S256 .f32) i = Cert.Spec.oneE :=
  (Read.val_main_v38_apply (F := Ideal) i).trans (Read.val_main_cst_7_apply _)

/-- A column repeated along the features reads the column. -/
theorem bcast41_apply (y : FVec Ideal S256x1 .f32) (i : S256x128.Idx) :
    broadcastInDim S256x128 ![0, 1] bcast_S256x1_S256x128_0_1 y i = y (ix2 (i 0) 0) :=
  broadcastInDim_apply _ bcast_S256x1_S256x128_0_1 y i (ix2 (i 0) 0) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

/-- A vector as a column reads the vector. -/
theorem bcast40_apply (y : FVec Ideal S256 .f32) (i : S256x1.Idx) :
    broadcastInDim S256x1 ![0] bcast_S256_S256x1_0 y i = y (ix1 (i 0)) :=
  broadcastInDim_apply _ bcast_S256_S256x1_0 y i (ix1 (i 0)) (fun a => match a with
    | ⟨0, _⟩ => by show (i 0).val = if (256 : Nat) = 1 then 0 else (i 0).val; rw [if_neg (by decide)])

/-- The larger of the count and one, repeated along the features. -/
theorem maxcnt_apply (C : FVec Ideal S256 .f32) (i : S256x128.Idx) :
    broadcastInDim S256x128 ![0, 1] bcast_S256x1_S256x128_0_1 (broadcastInDim S256x1 ![0] bcast_S256_S256x1_0
      (maximumf C (broadcastInDim S256 ![] bcast_S_S256 (constant S_ .f32 0x3F800000#32)))) i
      = max (C (ix1 (i 0))) Cert.Spec.oneE :=
  (bcast41_apply _ i).trans ((bcast40_apply _ _).trans (congrArg (max (C (ix1 (i 0)))) (ones256_apply _)))

/-- The bias, one number, repeated over the graphs. -/
theorem bias_apply (bo : FVec Ideal S1 .f32) (i : S256x1.Idx) :
    broadcastInDim S256x1 ![0, 1] bcast_S1x1_S256x1_0_1 (broadcastInDim S1x1 ![1] bcast_S1_S1x1_1 bo) i = bo (ix1 0) :=
  (Read.val_main_v45_apply (F := Ideal) bo i).trans ((Read.val_main_v44_apply (F := Ideal) bo _).trans
    (congrArg bo (funext fun a => by match a with | ⟨0, _⟩ => rfl)))

/-- The host's product of a 256 × 128 matrix with a 128 × 1 one, entry by entry. -/
theorem dotO_apply (L : FVec Ideal S256x128 .f32) (R : FVec Ideal S128x1 .f32) (i : S256x1.Idx) :
    Host.dotGeneral dot_S256x128_S128x1_S256x1_1_0_0_1_n_n none L R i = ∑ k : Fin 128, L (ix2 (i 0) k) * R (ix2 k 0) := by
  simp only [Host.dotGeneral]
  rw [Ideal.dotGeneral_apply, ← Equiv.sum_comp (ValueIdx.contrEquiv1 dot_S256x128_S128x1_S256x1_1_0_0_1_n_n 128 rfl rfl).symm]
  refine Finset.sum_congr rfl fun k _ => ?_
  have hk := ValueIdx.contrEquiv1_symm_val dot_S256x128_S128x1_S256x1_1_0_0_1_n_n 128 rfl rfl k
  have el : dot_S256x128_S128x1_S256x1_1_0_0_1_n_n.lhsIdx i ((ValueIdx.contrEquiv1 dot_S256x128_S128x1_S256x1_1_0_0_1_n_n 128 rfl rfl).symm k) = ix2 (i 0) k := funext fun a => Fin.ext (by
    match a with
    | ⟨0, _⟩ => exact Read.lhs_main_v43_0 _ _
    | ⟨1, _⟩ => exact (Read.lhs_main_v43_1 _ _).trans hk)
  have er : dot_S256x128_S128x1_S256x1_1_0_0_1_n_n.rhsIdx i ((ValueIdx.contrEquiv1 dot_S256x128_S128x1_S256x1_1_0_0_1_n_n 128 rfl rfl).symm k) = ix2 k 0 := funext fun a => Fin.ext (by
    match a with
    | ⟨0, _⟩ => exact (Read.rhs_main_v43_0 _ _).trans hk
    | ⟨1, _⟩ => exact (Read.rhs_main_v43_1 _ _).trans (Nat.lt_one_iff.mp (i 1).isLt))
  exact congrArg₂ (· * ·) (congrArg L el) (congrArg R er)

/-- The mean, the output layer and the logistic function: one over one plus the exponential of the negated
    number is the logistic function of the number. -/
theorem out_eq (P : FVec Ideal S256x128 .f32) (C : FVec Ideal S256 .f32) (wo : FVec Ideal S128x1 .f32) (bo : FVec Ideal S1 .f32) :
    Host.divf (broadcastInDim S256x1 ![] bcast_S_S256x1 (constant S_ .f32 0x3F800000#32)) (addf (broadcastInDim S256x1 ![] bcast_S_S256x1 (constant S_ .f32 0x3F800000#32)) (Host.exp (Host.negf (addf (Host.dotGeneral dot_S256x128_S128x1_S256x1_1_0_0_1_n_n none (Host.divf P (broadcastInDim S256x128 ![0, 1] bcast_S256x1_S256x128_0_1 (broadcastInDim S256x1 ![0] bcast_S256_S256x1_0 (maximumf C (broadcastInDim S256 ![] bcast_S_S256 (constant S_ .f32 0x3F800000#32)))))) wo) (broadcastInDim S256x1 ![0, 1] bcast_S1x1_S256x1_0_1 (broadcastInDim S1x1 ![1] bcast_S1_S1x1_1 bo))))))
      = Cert.Spec.Out P C wo bo := by
  funext g
  have hone := one256x1_apply g
  have hB := bias_apply bo g
  have hD := dotO_apply (Host.divf P (broadcastInDim S256x128 ![0, 1] bcast_S256x1_S256x128_0_1 (broadcastInDim S256x1 ![0] bcast_S256_S256x1_0 (maximumf C (broadcastInDim S256 ![] bcast_S_S256 (constant S_ .f32 0x3F800000#32)))))) wo g
  have hS := hD.trans (Finset.sum_congr rfl fun d _ =>
    congrArg (fun t => Ideal.div (P (ix2 (g 0) d)) t * wo (ix2 d 0)) (maxcnt_apply C (ix2 (g 0) d)))
  show Ideal.div (_ : EReal) (_ + Ideal.exp (-(_ + _))) = _
  rw [hone, hB, hS]
  rfl

/-- THE REFERENCE'S RESULT IS THE SPECIFICATION: the term the run states for the result buffer, with the argument arrays
    as variables, is the logistic output layer of the per-graph means of the second layer's neighbourhood sums. The two
    matrix products, the maximum with zero, the pooling sum and the output layer are the specification's stage by stage;
    the two neighbourhood sums and the counts stay as the host computes them. -/
theorem result_eq (x : FVec Ideal S100000x128 .f32) (ei : IVec S2x1600000 32) (b : IVec S100000 32)
    (w1 w2 : FVec Ideal S128x128 .f32) (wo : FVec Ideal S128x1 .f32) (bo : FVec Ideal S1 .f32) :
    Host.divf (broadcastInDim S256x1 ![] bcast_S_S256x1 (constant S_ .f32 0x3F800000#32)) (addf (broadcastInDim S256x1 ![] bcast_S_S256x1 (constant S_ .f32 0x3F800000#32)) (Host.exp (Host.negf (addf (Host.dotGeneral dot_S256x128_S128x1_S256x1_1_0_0_1_n_n none (Host.divf (Host.scatterAdd scatter_S256x128_S100000x1_S100000x128_1_0_0_1 (broadcastInDim S256x128 ![] bcast_S_S256x128 (constant S_ .f32 0x00000000#32)) (broadcastInDim S100000x1 ![0] bcast_S100000_S100000x1_0 b) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 (Host.dotGeneral dot_S100000x128_S128x128_S100000x128_1_0_0_1_n_n none (maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 (Host.dotGeneral dot_S100000x128_S128x128_S100000x128_1_0_0_1_n_n none x w1) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![] bcast_S_S100000x128 (constant S_ .f32 0x00000000#32))) w2) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))))) (broadcastInDim S256x128 ![0, 1] bcast_S256x1_S256x128_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 b) (broadcastInDim S100000 ![] bcast_S_S100000 (constant S_ .f32 0x3F800000#32))) (broadcastInDim S256 ![] bcast_S_S256 (constant S_ .f32 0x3F800000#32)))))) wo) (broadcastInDim S256x1 ![0, 1] bcast_S1x1_S256x1_0_1 (broadcastInDim S1x1 ![1] bcast_S1_S1x1_1 bo))))))
      = Cert.Spec.Out (Cert.Spec.Pool b (Agg (F := Ideal) (Cert.Spec.MM (Cert.Spec.Relu (Agg (F := Ideal) (Cert.Spec.MM x w1) ei)) w2) ei)) (Cnt (F := Ideal) b) wo bo := by
  show Host.divf (broadcastInDim S256x1 ![] bcast_S_S256x1 (constant S_ .f32 0x3F800000#32)) (addf (broadcastInDim S256x1 ![] bcast_S_S256x1 (constant S_ .f32 0x3F800000#32)) (Host.exp (Host.negf (addf (Host.dotGeneral dot_S256x128_S128x1_S256x1_1_0_0_1_n_n none (Host.divf (Host.scatterAdd scatter_S256x128_S100000x1_S100000x128_1_0_0_1 (broadcastInDim S256x128 ![] bcast_S_S256x128 (constant S_ .f32 0x00000000#32)) (broadcastInDim S100000x1 ![0] bcast_S100000_S100000x1_0 b) (Agg (Host.dotGeneral dot_S100000x128_S128x128_S100000x128_1_0_0_1_n_n none (maximumf (Agg (Host.dotGeneral dot_S100000x128_S128x128_S100000x128_1_0_0_1_n_n none x w1) ei) (broadcastInDim S100000x128 ![] bcast_S_S100000x128 (constant S_ .f32 0x00000000#32))) w2) ei)) (broadcastInDim S256x128 ![0, 1] bcast_S256x1_S256x128_0_1 (broadcastInDim S256x1 ![0] bcast_S256_S256x1_0 (maximumf (Cnt (F := Ideal) b) (broadcastInDim S256 ![] bcast_S_S256 (constant S_ .f32 0x3F800000#32)))))) wo) (broadcastInDim S256x1 ![0, 1] bcast_S1x1_S256x1_0_1 (broadcastInDim S1x1 ![1] bcast_S1_S1x1_1 bo)))))) = _
  rw [mm_eq x w1, relu_eq, mm_eq _ w2, pool_eq, out_eq]

end Cert.ReferenceIdeal.RefValue

end
-- ==== Proof.Alg.lean ====
/-
  The kernel program and the reference program compute the same function of the argument arrays.

  Both end with the result array at the logistic output layer of the per-graph means of the second layer's
  neighbourhood sums; the kernel program's neighbourhood sums and node counts are the reference program's, being the
  same host operations over the same shapes, dimension numbers and index words, so the two results are one term.
-/
import proofs.«419784_j30691836297408_1_alg».proof.Defs
import proofs.«419784_j30691836297408_1_alg».proof.Proof.Gen.Pre_finite_inputs
import proofs.«419784_j30691836297408_1_alg».proof.Proof.KI.Run
import proofs.«419784_j30691836297408_1_alg».proof.Proof.KI.GlueA
import proofs.«419784_j30691836297408_1_alg».proof.Proof.RefSpec

set_option maxRecDepth 16384

noncomputable section

namespace Cert.Proof.Alg

open Idealize.ShloMosaic Idealize.ShloMosaic.TcCoe Idealize.SL.Sem
open Cert.KernelIdeal Cert.KernelIdeal.Gen Cert.KernelIdeal.Fr Cert.KernelIdeal.Val

/-- The kernel program's neighbourhood sum is the reference program's: the same gather and accumulating scatter over
    the same shapes and dimension numbers, the source row wrapped and the two rows laid out as columns the same way. -/
theorem agg_cross (h : FVec Ideal S100000x128 .f32) (ei : IVec S2x1600000 32) :
    AggK h (srcRow ei) (dstRow ei) = Cert.ReferenceIdeal.RefValue.Agg (F := Ideal) h ei := rfl

/-- The kernel program's node counts are the reference program's. -/
theorem cnt_cross (b : IVec S100000 32) :
    CntK b = Cert.ReferenceIdeal.RefValue.Cnt (F := Ideal) b := rfl

/-- THE TWO PROGRAMS AGREE, given what the pooling kernel's write-back folds to: from memories agreeing on the
    arguments both run, leave the arguments unchanged and end with the same result array. -/
theorem algebraic_of
    (harr2 : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      (dat2 (F := Ideal) (V5 m ρ) c).arrAt 5 cfg2.N
        = Cert.Spec.Out2 (Cert.Spec.Pool2 (V5 m ρ c main_v30) (V5 m ρ c main_v25)) (V5 m ρ c main_v31)
            (V5 m ρ c main_arg5) (V5 m ρ c main_v32)) :
    Cert.algebraic_KernelIdeal_ReferenceIdeal := by
  intro m ρ m' ρ' _ hagree
  refine ⟨fun c => W6 (F := Ideal) m ρ c (Proc.devRef .tc main_v33), ?_, ?_⟩
  · exact (θ_run Cert.KernelIdeal.defs _ _).mono (fun r h c =>
      ⟨h c _ (mem_uc main_v33 (by decide)),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c),
        (h c _ (mem_uc main_arg5 (by decide))).trans (W6_main_arg5 m ρ c),
        (h c _ (mem_uc main_arg6 (by decide))).trans (W6_main_arg6 m ρ c)⟩) (Cert.KernelIdeal.Fr.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [e0, e1, e2, e3, e4, e5, e6]
    refine (Cert.ReferenceIdeal.RefValue.result_eq _ _ _ _ _ _ _).trans ?_
    refine ((W6_v33 m ρ (harr2 m ρ c)).trans ?_).symm
    unfold agg2 agg1
    rw [agg_cross, agg_cross, cnt_cross]

end Cert.Proof.Alg

end
-- ==== Proof.lean ====
/-
  The certificate of a two-layer graph convolution with mean pooling.  The kernel's program computes
  x · W1 and relu(·) · W2 in two tiled pallas_calls, sums source rows into destination rows along the edges on
  the host after each, and pools in a third pallas_call: the one-hot matrix of the graph numbers, contracted
  with the node rows block by block into an accumulator, divided by the larger of each graph's count and one,
  contracted with the output weights, the bias added, the logistic function applied.  The reference does the same
  with whole matrix products and a segment sum.  Over the extended reals the two are one function of the
  arguments: a matrix product is the same sum whatever its tiling, the one-hot contraction is the segment sum
  (1 · x = x, 0 · x = 0, a row with a graph number outside 0 … 255 contributing to neither), and sums of extended
  reals may be re-ordered freely.  The frames: each program runs to the end and leaves its arguments as launched.
-/
import proofs.«419784_j30691836297408_1_alg».proof.Defs
import proofs.«419784_j30691836297408_1_alg».proof.Proof.Gen.Kernel
import proofs.«419784_j30691836297408_1_alg».proof.Proof.Gen.KernelIdeal
import proofs.«419784_j30691836297408_1_alg».proof.Proof.Gen.ReferenceIdeal
import proofs.«419784_j30691836297408_1_alg».proof.Proof.Gen.Pre_finite_inputs
import proofs.«419784_j30691836297408_1_alg».proof.Proof.Frames
import proofs.«419784_j30691836297408_1_alg».proof.Proof.KI.Val2
import proofs.«419784_j30691836297408_1_alg».proof.Proof.Alg
import Idealize.ShloMosaic.Adequacy
import Idealize.ShloMosaic.Init

noncomputable section

namespace Cert.Proof

open Idealize.ShloMosaic Idealize.SL.Sem

/-- The two programs agree at the extended reals: the kernel's result array is the specification's function of
    the arguments (the pooling kernel's folded write-back, over the values its operands hold), and so is the
    reference's. -/
theorem algebraic : Cert.algebraic_KernelIdeal_ReferenceIdeal :=
  Cert.Proof.Alg.algebraic_of fun m ρ c => Cert.KernelIdeal.Val.arr2 (Cert.KernelIdeal.Fr.V5 m ρ) c

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, algebraic⟩

end Cert.Proof

end
